-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x32x64 : Shape := ⟨3, ![4096, 32, 64]⟩
abbrev S4096x32x1 : Shape := ⟨3, ![4096, 32, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32x1 : S_.BroadcastsInDim S4096x32x1 (![] : Fin 0 → Fin S4096x32x1.rank)
  reducesTo_S4096x32x1_S_d0_1_2 : S4096x32x1.ReducesTo [0, 1, 2] S_

variable [Facts]

def fn {F : FTy → Type} [FloatOps F] (main_arg0 : FVec F S4x2048x4096 .f32) (main_arg1 : IVec S4096x32x64 32) (main_arg2 : FVec F S4096x32x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32x1 .f32 := Host.absf main_arg2
  let main_cst_0 : FVec F S_ .f32 := constant S_ .f32 0x7F800000#32
  let main_v5 : FVec F S4096x32x1 .f32 := broadcastInDim S4096x32x1 ![] bcast_S_S4096x32x1 main_cst_0
  let main_v6 : IVec S4096x32x1 1 := cmpf .olt main_v4 main_v5
  let main_c_1 : IVec S_ 1 := constantI S_ 1 1#1
  let main_v7 : IVec S_ 1 := (fun x v => Host.reduce IntOp.andi x v reducesTo_S4096x32x1_S_d0_1_2 h_S_) main_v6 main_c_1
  let main_v8 : IVec S_ 1 := andi main_v3 main_v7
  main_v8
-- ==== Kernel.lean ====
abbrev S4x2048x4096 : Shape := ⟨3, ![4, 2048, 4096]⟩
abbrev S4096x32x64 : Shape := ⟨3, ![4096, 32, 64]⟩
abbrev S4096x32x1 : Shape := ⟨3, ![4096, 32, 1]⟩
abbrev S8192x4096 : Shape := ⟨2, ![8192, 4096]⟩
abbrev S32x4096x64 : Shape := ⟨3, ![32, 4096, 64]⟩
abbrev S32x4096x1 : Shape := ⟨3, ![32, 4096, 1]⟩
abbrev S512x256 : Shape := ⟨2, ![512, 256]⟩
abbrev S2x1024x64 : Shape := ⟨3, ![2, 1024, 64]⟩
abbrev S2x1024x1 : Shape := ⟨3, ![2, 1024, 1]⟩
abbrev S512x1024 : Shape := ⟨2, ![512, 1024]⟩
abbrev S1x1024x64 : Shape := ⟨3, ![1, 1024, 64]⟩
abbrev S1024x64 : Shape := ⟨2, ![1024, 64]⟩
abbrev S1x1024x1 : Shape := ⟨3, ![1, 1024, 1]⟩
abbrev S1024x1 : Shape := ⟨2, ![1024, 1]⟩
abbrev S1024x64x1 : Shape := ⟨3, ![1024, 64, 1]⟩
abbrev S1024x64x2 : Shape := ⟨3, ![1024, 64, 2]⟩
abbrev S1024x128 : Shape := ⟨2, ![1024, 128]⟩
abbrev S512x128 : Shape := ⟨2, ![512, 128]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x32x64, .i32⟩
  | .hbm, ⟨2, _⟩ => ⟨S4096x32x1, .f32⟩
  | .hbm, ⟨3, _⟩ => ⟨S8192x4096, .f32⟩
  | .hbm, ⟨4, _⟩ => ⟨S32x4096x64, .i32⟩
  | .hbm, ⟨5, _⟩ => ⟨S32x4096x1, .f32⟩
  | .hbm, ⟨6, _⟩ => ⟨S8192x4096, .f32⟩
  | .hbm, ⟨7, _⟩ => ⟨S4x2048x4096, .f32⟩
  | .local _ .vmem, ⟨0, _⟩ => ⟨S512x256, .f32⟩
  | .local _ .vmem, ⟨1, _⟩ => ⟨S512x256, .f32⟩
  | .local _ .vmem, ⟨2, _⟩ => ⟨S2x1024x64, .i32⟩
  | .local _ .vmem, ⟨3, _⟩ => ⟨S2x1024x64, .i32⟩
  | .local _ .vmem, ⟨4, _⟩ => ⟨S2x1024x1, .f32⟩
  | .local _ .vmem, ⟨5, _⟩ => ⟨S2x1024x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 16], ![false, false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let v7 : Index := Scalar.indexCast arg8
  let c0 : Index := 0#32
  let c0_4 : Index := 0#32
  ![v7.toNat, 0, 0]
def k0_off2 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let v10 : Index := Scalar.indexCast arg8
  let c0_5 : Index := 0#32
  let c0_6 : Index := 0#32
  ![v10.toNat, 0, 0]
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c128_i32 : BitVec 32 := 128#32
  let v30 : BitVec 32 := Scalar.muli arg8 c128_i32
  v30
def k0_off3 (k0_t1 : Fin k0_t1_loop.trips) : Fin 2 → Nat :=
  let c0_9 : Index := 0#32
  let c0_i32_1 : BitVec 32 := 0#32
  let c1_i32 : BitVec 32 := 1#32
  let arg8 : BitVec 32 := Scf.iv c0_i32_1 c1_i32 k0_t1
  let c128_i32 : BitVec 32 := 128#32
  let v30 : BitVec 32 := Scalar.muli arg8 c128_i32
  let v31 : BitVec 32 := v30
  let v32 : Index := Scalar.indexCast v31
  ![0, v32.toNat]
def k0_cond2 (i : grid0.Coords) : BitVec 1 :=
  let arg2 : BitVec 32 := BitVec.ofNat 32 (i 2).val
  let c15_i32 : BitVec 32 := 15#32
  let v4 : BitVec 1 := Scalar.cmpi .eq arg2 c15_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  transposes_S4096x32x64_S32x4096x64_1_0_2 : S4096x32x64.Transposes [1, 0, 2] S32x4096x64
  transposes_S4096x32x1_S32x4096x1_1_0_2 : S4096x32x1.Transposes [1, 0, 2] S32x4096x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S1x1024x64 : 0 < S1x1024x64.numel
  shapeCasts_S1x1024x64_S1024x64 : S1x1024x64.ShapeCasts S1024x64
  h_S1x1024x1 : 0 < S1x1024x1.numel
  shapeCasts_S1x1024x1_S1024x1 : S1x1024x1.ShapeCasts S1024x1
  shapeCasts_S1024x64_S1024x64x1 : S1024x64.ShapeCasts S1024x64x1
  concatenates_S1024x64x1_S1024x64x1_S1024x64x2_d2 : Shape.Concatenates [S1024x64x1, S1024x64x1] S1024x64x2 2
  shapeCasts_S1024x64x2_S1024x128 : S1024x64x2.ShapeCasts S1024x128
  broadcasts_S1024x1_S1024x128 : S1024x1.Broadcasts S1024x128
  bitsLt_bf16_f32 : FTy.bits .bf16 < FTy.bits .f32
  h_S512x128 : 0 < S512x128.numel
  shapeCasts_S512x128_S512x128 : S512x128.ShapeCasts S512x128
  shapeCasts_S8192x4096_S4x2048x4096 : S8192x4096.ShapeCasts S4x2048x4096
  dot_S512x128_S1024x128_S512x1024_1_1_0_0_n_n_wf : DotDims.WF S512x128 S1024x128 S512x1024 [1] [1] [0] [0] [] []
  hrank0 : 0 < grid0.rank
  k0_t1_ok : k0_t1_loop.OK
  k0_off1_inb : ∀ k0_t1 : Fin k0_t1_loop.trips, ∀ a, (k0_off1 k0_t1) a + S1x1024x64.size a ≤ S2x1024x64.size a
  k0_off2_inb : ∀ k0_t1 : Fin k0_t1_loop.trips, ∀ a, (k0_off2 k0_t1) a + S1x1024x1.size a ≤ S2x1024x1.size a
  k0_mult1_dvd : ∀ k0_t1 : Fin k0_t1_loop.trips, 128 ∣ (k0_mult1 k0_t1).toNat
  k0_off3_inb : ∀ k0_t1 : Fin k0_t1_loop.trips, ∀ a, (k0_off3 k0_t1) a + S512x128.size a ≤ S512x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .f32 = 32 ∨ (Rect.block (s := S8192x4096) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S32x4096x64.size a
  hwx0_1 : ∀ i : grid0.Coords, EltTy.bits .i32 = 32 ∨ (Rect.block (s := S32x4096x64) S2x1024x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x1.size a ≤ S32x4096x1.size a
  hwx0_2 : ∀ i : grid0.Coords, EltTy.bits .f32 = 32 ∨ (Rect.block (s := S32x4096x1) S2x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x32x64 : Shape := ⟨3, ![4096, 32, 64]⟩
abbrev S4096x32x1 : Shape := ⟨3, ![4096, 32, 1]⟩
abbrev S_ : Shape := ⟨0, ![]⟩
abbrev S4096x32x64x1 : Shape := ⟨4, ![4096, 32, 64, 1]⟩
abbrev S4096x32x64x2 : Shape := ⟨4, ![4096, 32, 64, 2]⟩
abbrev S4096x32x128 : Shape := ⟨3, ![4096, 32, 128]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x32x64, .i32⟩
  | .hbm, ⟨2, _⟩ => ⟨S4096x32x1, .f32⟩
  | .hbm, ⟨3, _⟩ => ⟨S_, .i32⟩
  | .hbm, ⟨4, _⟩ => ⟨S4096x32x64, .i32⟩
  | .hbm, ⟨5, _⟩ => ⟨S4096x32x64, .i32⟩
  | .hbm, ⟨6, _⟩ => ⟨S4096x32x64, .f32⟩
  | .hbm, ⟨7, _⟩ => ⟨S_, .f32⟩
  | .hbm, ⟨8, _⟩ => ⟨S4096x32x64, .f32⟩
  | .hbm, ⟨9, _⟩ => ⟨S4096x32x64, .f32⟩
  | .hbm, ⟨10, _⟩ => ⟨S_, .i32⟩
  | .hbm, ⟨11, _⟩ => ⟨S4096x32x64, .i32⟩
  | .hbm, ⟨12, _⟩ => ⟨S4096x32x64, .i32⟩
  | .hbm, ⟨13, _⟩ => ⟨S4096x32x64, .f32⟩
  | .hbm, ⟨14, _⟩ => ⟨S_, .f32⟩
  | .hbm, ⟨15, _⟩ => ⟨S4096x32x64, .f32⟩
  | .hbm, ⟨16, _⟩ => ⟨S4096x32x64, .f32⟩
  | .hbm, ⟨17, _⟩ => ⟨S4096x32x64x1, .f32⟩
  | .hbm, ⟨18, _⟩ => ⟨S4096x32x64x1, .f32⟩
  | .hbm, ⟨19, _⟩ => ⟨S4096x32x64x2, .f32⟩
  | .hbm, ⟨20, _⟩ => ⟨S4096x32x128, .f32⟩
  | .hbm, ⟨21, _⟩ => ⟨S4096x32x128, .f32⟩
  | .hbm, ⟨22, _⟩ => ⟨S4096x32x128, .f32⟩
  | .hbm, ⟨23, _⟩ => ⟨S4096x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S4096x32x64 : S_.BroadcastsInDim S4096x32x64 (![] : Fin 0 → Fin S4096x32x64.rank)
  bcast_S4096x32x64_S4096x32x64x1_0_1_2 : S4096x32x64.BroadcastsInDim S4096x32x64x1 (![0, 1, 2] : Fin 3 → Fin S4096x32x64x1.rank)
  concatenates_S4096x32x64x1_S4096x32x64x1_S4096x32x64x2_d3 : Shape.Concatenates [S4096x32x64x1, S4096x32x64x1] S4096x32x64x2 3
  shapeCasts_S4096x32x64x2_S4096x32x128 : S4096x32x64x2.ShapeCasts S4096x32x128
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Common.lean ====
/-
  The accumulating matmul body, case by case: what the runs of the three cases share.
  The grid is 16 x 4 x 16, the last axis the reduction over 16 chunks of 256 input features.
  The body zeroes its accumulator when the chunk index is 0, adds two 128-feature products in a
  counted loop at every point, and copies the accumulator to the output block when the chunk index
  is 15. Both conditions are decided here over the 1024 grid points in closed form.
-/
import proofs.«406665_j23776938950951_4_alg».proof.Proof.Gen.Kernel.Frame
import proofs.«406665_j23776938950951_4_alg».proof.Proof.Gen.Kernel.Loops
import proofs.«406665_j23776938950951_4_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body -/

/-- The accumulator is zeroed: the chunk index is 0. -/
abbrev isFirst (i : grid0.Coords) : Prop :=
  (Scalar.cmpi .ne (Scalar.extui (Scalar.cmpi .eq (BitVec.ofNat 32 (i 2).val) 0#32)) 0#32) = 1#1
/-- The accumulator is copied out: the chunk index is 15. -/
abbrev isLast (i : grid0.Coords) : Prop := k0_cond2 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Away from the last chunk the body stores nothing into the output block, -/
theorem idle_3 : ∀ t : Fin cfg0.N, ¬isLast (grid0.coords t) → cfg0.idle 3 (grid0.coords t) = true := by decide +kernel
/-- and the block is not written back there. -/
theorem noFlush_3 : ∀ t : Fin cfg0.N, ¬isLast (grid0.coords t) → (cfg0.win 3).flush t = false := by decide +kernel
/-- At the last chunk it is stored whole. -/
theorem live_3 : ∀ t : Fin cfg0.N, isLast (grid0.coords t) → cfg0.idle 3 (grid0.coords t) = false := by decide +kernel

/-! ## The memrefs the body is called with -/

abbrev ms_0 (t : Fin cfg0.N) : Memref sig .tc .vmem S512x256 .f32 := win0_0.stage (cfg0.slots t 0)
abbrev hs_0 (t : Fin cfg0.N) : (ms_0 t).IsWhole := Facts₀.hstage0_0 ((cfg0.slots t 0).cast Facts₀.nbuf0_0)
abbrev ms_1 (t : Fin cfg0.N) : Memref sig .tc .vmem S2x1024x64 .i32 := win0_1.stage (cfg0.slots t 1)
abbrev hs_1 (t : Fin cfg0.N) : (ms_1 t).IsWhole := Facts₀.hstage0_1 ((cfg0.slots t 1).cast Facts₀.nbuf0_1)
abbrev ms_2 (t : Fin cfg0.N) : Memref sig .tc .vmem S2x1024x1 .f32 := win0_2.stage (cfg0.slots t 2)
abbrev hs_2 (t : Fin cfg0.N) : (ms_2 t).IsWhole := Facts₀.hstage0_2 ((cfg0.slots t 2).cast Facts₀.nbuf0_2)
abbrev ms_3 (t : Fin cfg0.N) : Memref sig .tc .vmem S512x1024 .f32 := win0_3.stage (cfg0.slots t 3)
abbrev hs_3 (t : Fin cfg0.N) : (ms_3 t).IsWhole := Facts₀.hstage0_3 ((cfg0.slots t 3).cast Facts₀.nbuf0_3)
/-- The accumulator: the kernel's one scratch buffer, whole. -/
abbrev accM : Memref sig .tc .vmem S512x1024 .f32 := Memref.whole cc0_scratch0
/-- The views through which the accumulator's and the output block's contents are stated. -/
abbrev accV : View sig .tc .vmem S512x1024 .f32 := accM.view
abbrev outV : View sig .tc .vmem S512x1024 .f32 := (Memref.whole cc0_stg3_0 : Memref sig .tc .vmem S512x1024 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.K.Runs.lean ====
/-
  The body run once per case of its two conditions, on any whole staging memrefs holding the
  point's three input blocks: the first chunk (accumulator zeroed, then two products added), a
  middle chunk (two products added to what the chunk before left), the last chunk (the same, then
  the accumulator copied into the output block). Each run names the pieces the accumulator (and in
  the last case the output block) ends with; the counted loop is crossed by its invariant.
-/
import proofs.«406665_j23776938950951_4_alg».proof.Proof.K.Common

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- First chunk: the accumulator, at anything, is zeroed and two products are added. The output
    block is handed back untouched. -/
noncomputable def runFirst (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) :
    { LS : List (View.Piece (Elt F) S512x1024 .f32) //
      ∀ (xi6 : Vec F S512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare xi6 ∗ (∃ d, owns (c : Thread nD τ) arg7 fullShare d)
            ∗ (iprop(owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun xi6 E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%d7, %f7, -, H7⟩, Hk⟩
    obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- A middle chunk: two products are added to what the accumulator held. The output block is
    handed back untouched. -/
noncomputable def runMid (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) :
    { LS : List (View.Piece (Elt F) S512x1024 .f32) //
      ∀ (xi6 : Vec F S512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare xi6 ∗ owns (c : Thread nD τ) arg7 fullShare xs
            ∗ (iprop(owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun xi6 E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- The last chunk: two products are added to what the accumulator held, and the accumulator is
    stored whole into the output block (which held anything). -/
noncomputable def runLast (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) :
    Σ' (L6 : List (View.Piece (Elt F) S512x1024 .f32)), { LS : List (View.Piece (Elt F) S512x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%d6, %f6, -, H6⟩, ⟨%f7, %hf7, H7⟩, Hk⟩
    obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Body

end
-- ==== Proof.K.Data.lean ====
/-
  The proof data of the accumulating matmul's one pipeline, and its frame run.
  After the body at grid point t the accumulator holds what the point's case leaves in it: at a
  first chunk the two products of the point's blocks over zero, at a later chunk the same two
  products over what the point before left. The output block is stored (a copy of the
  accumulator) at a last chunk only; at every other point it is idle and not written back. The
  region's invariant names the accumulator's contents from the second point on, so that the body
  obligation at each point starts from what the point before left.
-/
import proofs.«406665_j23776938950951_4_alg».proof.Proof.K.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator after a first chunk: the run's pieces read back. -/
def accFirst (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) : Vec F S512x1024 .f32 :=
  accV.read (Elt F) (accV.writes (Elt F) accV.junk (runFirst c i arg3 harg3 arg4 harg4 arg5 harg5 arg6 harg6 arg7 harg7 hc0 hc1 x3 x4 x5).1)
/-- Its pieces cover the accumulator (every store into it is of the whole buffer). -/
theorem coverFirst (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) (y : S512x1024.Idx) :
    ∃ pc ∈ (runFirst c i arg3 harg3 arg4 harg4 arg5 harg5 arg6 harg6 arg7 harg7 hc0 hc1 x3 x4 x5).1, y ∈ pc.1.set :=
  View.cover_of_tiledL (runFirst c i arg3 harg3 arg4 harg4 arg5 harg5 arg6 harg6 arg7 harg7 hc0 hc1 x3 x4 x5).1 S512x1024.size (by sl_kernel_rfl) y

/-- The accumulator after a middle chunk, over what it held (`xs`). -/
def accMid (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) : Vec F S512x1024 .f32 :=
  accV.read (Elt F) (accV.writes (Elt F) accV.junk (runMid c i arg3 harg3 arg4 harg4 arg5 harg5 arg6 harg6 arg7 harg7 hc0 hc1 x3 x4 x5 xs).1)
theorem coverMid (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) (y : S512x1024.Idx) :
    ∃ pc ∈ (runMid c i arg3 harg3 arg4 harg4 arg5 harg5 arg6 harg6 arg7 harg7 hc0 hc1 x3 x4 x5 xs).1, y ∈ pc.1.set :=
  View.cover_of_tiledL (runMid c i arg3 harg3 arg4 harg4 arg5 harg5 arg6 harg6 arg7 harg7 hc0 hc1 x3 x4 x5 xs).1 S512x1024.size (by sl_kernel_rfl) y

/-- The accumulator after a last chunk, over what it held. -/
def accLast (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) : Vec F S512x1024 .f32 :=
  accV.read (Elt F) (accV.writes (Elt F) accV.junk (runLast c i arg3 harg3 arg4 harg4 arg5 harg5 arg6 harg6 arg7 harg7 hc0 hc1 x3 x4 x5 xs).2.1)
theorem coverLastAcc (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) (y : S512x1024.Idx) :
    ∃ pc ∈ (runLast c i arg3 harg3 arg4 harg4 arg5 harg5 arg6 harg6 arg7 harg7 hc0 hc1 x3 x4 x5 xs).2.1, y ∈ pc.1.set :=
  View.cover_of_tiledL (runLast c i arg3 harg3 arg4 harg4 arg5 harg5 arg6 harg6 arg7 harg7 hc0 hc1 x3 x4 x5 xs).2.1 S512x1024.size (by sl_kernel_rfl) y
/-- The output block after a last chunk. -/
def outLast (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) : Vec F S512x1024 .f32 :=
  outV.read (Elt F) (outV.writes (Elt F) outV.junk (runLast c i arg3 harg3 arg4 harg4 arg5 harg5 arg6 harg6 arg7 harg7 hc0 hc1 x3 x4 x5 xs).1)
theorem coverLastOut (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) (y : S512x1024.Idx) :
    ∃ pc ∈ (runLast c i arg3 harg3 arg4 harg4 arg5 harg5 arg6 harg6 arg7 harg7 hc0 hc1 x3 x4 x5 xs).1, y ∈ pc.1.set :=
  View.cover_of_tiledL (runLast c i arg3 harg3 arg4 harg4 arg5 harg5 arg6 harg6 arg7 harg7 hc0 hc1 x3 x4 x5 xs).1 S512x1024.size (by sl_kernel_rfl) y

/-- A placeholder for the output block where it is idle: nothing consults it. -/
def idleOut : Vec F S512x1024 .f32 := outV.read (Elt F) (outV.writes (Elt F) outV.junk [])

/-! ## Point by point -/

/-- The output block and the accumulator after point `t`, from what the accumulator held before. -/
def stepAt (c : Dev nD) (t : Fin cfg0.N) (prev : Vec F S512x1024 .f32) : Vec F S512x1024 .f32 × Vec F S512x1024 .f32 :=
  if h0 : t.val % 16 = 0 then
    (idleOut, accFirst c (grid0.coords t) (ms_0 t) (hs_0 t) (ms_1 t) (hs_1 t) (ms_2 t) (hs_2 t) (ms_3 t) (hs_3 t) accM (Memref.isWhole_whole _) ((isFirst_iff t).mpr h0) (fun h => absurd ((isLast_iff t).mp h) (by omega)) (iblk m c 0 t) (iblk m c 1 t) (iblk m c 2 t))
  else if h1 : t.val % 16 = 15 then
    (outLast c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk m c 0 t) (iblk m c 1 t) (iblk m c 2 t) prev,
     accLast c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk m c 0 t) (iblk m c 1 t) (iblk m c 2 t) prev)
  else
    (idleOut, accMid c (grid0.coords t) (ms_0 t) (hs_0 t) (ms_1 t) (hs_1 t) (ms_2 t) (hs_2 t) (ms_3 t) (hs_3 t) accM (Memref.isWhole_whole _) (fun h => h0 ((isFirst_iff t).mp h)) (fun h => h1 ((isLast_iff t).mp h)) (iblk m c 0 t) (iblk m c 1 t) (iblk m c 2 t) prev)

/-- THE ACCUMULATION: the output block and the accumulator after each point, by recursion on the point. -/
def outsAt (c : Dev nD) : (n : ℕ) → n < cfg0.N → Vec F S512x1024 .f32 × Vec F S512x1024 .f32
  | 0, hn => stepAt m c ⟨0, hn⟩ idleOut
  | n + 1, hn => stepAt m c ⟨n + 1, hn⟩ (outsAt c n (Nat.lt_of_succ_lt hn)).2

/-- What the accumulator holds when point `t` starts (anything, named by a placeholder, at point 0). -/
def accBefore (c : Dev nD) (t : Fin cfg0.N) : Vec F S512x1024 .f32 :=
  if h : t.val = 0 then idleOut else (outsAt m c (t.val - 1) (Nat.lt_of_le_of_lt (Nat.sub_le _ _) t.isLt)).2

theorem outsAt_eq (c : Dev nD) (t : Fin cfg0.N) : outsAt m c t.val t.isLt = stepAt m c t (accBefore m c t) := by
  obtain ⟨n, hn⟩ := t
  cases n with
  | zero => rfl
  | succ n => rfl

/-! ## The region's invariant -/

def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms_0 t) fullShare (iblk m c 0 t) := by
  unfold Dat.leavesExact; rw [live_0 t, after_0]
theorem leaves_1 (c : Dev nD) (t : Fin cfg0.N) :
    (dats m 0 c).leavesExact 1 t = owns (c : Thread nD τ) (ms_1 t) fullShare (iblk m c 1 t) := by
  unfold Dat.leavesExact; rw [live_1 t, after_1]
theorem leaves_2 (c : Dev nD) (t : Fin cfg0.N) :
    (dats m 0 c).leavesExact 2 t = owns (c : Thread nD τ) (ms_2 t) fullShare (iblk m c 2 t) := by
  unfold Dat.leavesExact; rw [live_2 t, after_2]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, outsAt_eq m c t]
  have hN : t.val < 1024 := lt_of_lt_of_eq t.isLt (show cfg0.N = 1024 from N_0)
  by_cases h0 : t.val % 16 = 0
  · have hL : ¬isLast (grid0.coords t) := fun h => absurd ((isLast_iff t).mp h) (by omega)
    rw [Dat.leavesExact_idle (dats m 0 c) 3 t (idle_3 t hL) (noFlush_3 t hL)]
    rw [show stepAt m c t (accBefore m c t) = (idleOut, accFirst c (grid0.coords t) (ms_0 t) (hs_0 t) (ms_1 t) (hs_1 t) (ms_2 t) (hs_2 t) (ms_3 t) (hs_3 t) accM (Memref.isWhole_whole _) ((isFirst_iff t).mpr h0) hL (iblk m c 0 t) (iblk m c 1 t) (iblk m c 2 t)) from dif_pos h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hL (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hL (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hF : ¬isFirst (grid0.coords t) := fun h => h0 ((isFirst_iff t).mp h)
    have hz : t.val ≠ 0 := fun h => h0 (by rw [h])
    have hprev : accBefore m c t = (outsAt m c (t.val - 1) (Nat.lt_of_le_of_lt (Nat.sub_le _ _) t.isLt)).2 := dif_neg hz
    by_cases h1 : t.val % 16 = 15
    · have hL : isLast (grid0.coords t) := (isLast_iff t).mpr h1
      rw [show (dats m 0 c).leavesExact 3 t = owns (c : Thread nD τ) (ms_3 t) fullShare ((dats m 0 c).after 3 t) from by
        unfold Dat.leavesExact; rw [live_3 t hL], after_3, outsAt_eq m c t]
      rw [show stepAt m c t (accBefore m c t) = (outLast c (grid0.coords t) (ms_0 t) (hs_0 t) (ms_1 t) (hs_1 t) (ms_2 t) (hs_2 t) (ms_3 t) (hs_3 t) accM (Memref.isWhole_whole _) hF hL (iblk m c 0 t) (iblk m c 1 t) (iblk m c 2 t) (accBefore m c t), accLast c (grid0.coords t) (ms_0 t) (hs_0 t) (ms_1 t) (hs_1 t) (ms_2 t) (hs_2 t) (ms_3 t) (hs_3 t) accM (Memref.isWhole_whole _) hF hL (iblk m c 0 t) (iblk m c 1 t) (iblk m c 2 t) (accBefore m c t)) from (dif_neg h0).trans (dif_pos h1)]
      unfold outLast accLast; (try dsimp only)
      rw [PhiS_castSucc m c t, PhiS_pos m c _ _ hz, ← hprev]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ hF hL (iblk m c 0 t) (iblk m c 1 t) (iblk m c 2 t) (accBefore m c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · have hL : ¬isLast (grid0.coords t) := fun h => h1 ((isLast_iff t).mp h)
      rw [Dat.leavesExact_idle (dats m 0 c) 3 t (idle_3 t hL) (noFlush_3 t hL)]
      rw [show stepAt m c t (accBefore m c t) = (idleOut, accMid c (grid0.coords t) (ms_0 t) (hs_0 t) (ms_1 t) (hs_1 t) (ms_2 t) (hs_2 t) (ms_3 t) (hs_3 t) accM (Memref.isWhole_whole _) hF hL (iblk m c 0 t) (iblk m c 1 t) (iblk m c 2 t) (accBefore m c t)) from (dif_neg h0).trans (dif_neg h1)]
      unfold accMid; (try dsimp only)
      rw [PhiS_castSucc m c t, PhiS_pos m c _ _ hz, ← hprev]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ hF hL (iblk m c 0 t) (iblk m c 1 t) (iblk m c 2 t) (accBefore m c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- Every weakly fair execution of the program terminates, each array of the pipeline ending at what
    the proof data computes and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Common.lean ====
/-
  The accumulating matmul body, case by case: what the runs of the three cases share.
  The grid is 16 x 4 x 16, the last axis the reduction over 16 chunks of 256 input features.
  The body zeroes its accumulator when the chunk index is 0, adds two 128-feature products in a
  counted loop at every point, and copies the accumulator to the output block when the chunk index
  is 15. Both conditions are decided here over the 1024 grid points in closed form.
-/
import proofs.«406665_j23776938950951_4_alg».proof.Proof.Gen.KernelIdeal.Frame
import proofs.«406665_j23776938950951_4_alg».proof.Proof.Gen.KernelIdeal.Loops
import proofs.«406665_j23776938950951_4_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body -/

/-- The accumulator is zeroed: the chunk index is 0. -/
abbrev isFirst (i : grid0.Coords) : Prop :=
  (Scalar.cmpi .ne (Scalar.extui (Scalar.cmpi .eq (BitVec.ofNat 32 (i 2).val) 0#32)) 0#32) = 1#1
/-- The accumulator is copied out: the chunk index is 15. -/
abbrev isLast (i : grid0.Coords) : Prop := k0_cond2 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Away from the last chunk the body stores nothing into the output block, -/
theorem idle_3 : ∀ t : Fin cfg0.N, ¬isLast (grid0.coords t) → cfg0.idle 3 (grid0.coords t) = true := by decide +kernel
/-- and the block is not written back there. -/
theorem noFlush_3 : ∀ t : Fin cfg0.N, ¬isLast (grid0.coords t) → (cfg0.win 3).flush t = false := by decide +kernel
/-- At the last chunk it is stored whole. -/
theorem live_3 : ∀ t : Fin cfg0.N, isLast (grid0.coords t) → cfg0.idle 3 (grid0.coords t) = false := by decide +kernel

/-! ## The memrefs the body is called with -/

abbrev ms_0 (t : Fin cfg0.N) : Memref sig .tc .vmem S512x256 .f32 := win0_0.stage (cfg0.slots t 0)
abbrev hs_0 (t : Fin cfg0.N) : (ms_0 t).IsWhole := Facts₀.hstage0_0 ((cfg0.slots t 0).cast Facts₀.nbuf0_0)
abbrev ms_1 (t : Fin cfg0.N) : Memref sig .tc .vmem S2x1024x64 .i32 := win0_1.stage (cfg0.slots t 1)
abbrev hs_1 (t : Fin cfg0.N) : (ms_1 t).IsWhole := Facts₀.hstage0_1 ((cfg0.slots t 1).cast Facts₀.nbuf0_1)
abbrev ms_2 (t : Fin cfg0.N) : Memref sig .tc .vmem S2x1024x1 .f32 := win0_2.stage (cfg0.slots t 2)
abbrev hs_2 (t : Fin cfg0.N) : (ms_2 t).IsWhole := Facts₀.hstage0_2 ((cfg0.slots t 2).cast Facts₀.nbuf0_2)
abbrev ms_3 (t : Fin cfg0.N) : Memref sig .tc .vmem S512x1024 .f32 := win0_3.stage (cfg0.slots t 3)
abbrev hs_3 (t : Fin cfg0.N) : (ms_3 t).IsWhole := Facts₀.hstage0_3 ((cfg0.slots t 3).cast Facts₀.nbuf0_3)
/-- The accumulator: the kernel's one scratch buffer, whole. -/
abbrev accM : Memref sig .tc .vmem S512x1024 .f32 := Memref.whole cc0_scratch0
/-- The views through which the accumulator's and the output block's contents are stated. -/
abbrev accV : View sig .tc .vmem S512x1024 .f32 := accM.view
abbrev outV : View sig .tc .vmem S512x1024 .f32 := (Memref.whole cc0_stg3_0 : Memref sig .tc .vmem S512x1024 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.KI.Runs.lean ====
/-
  The body run once per case of its two conditions, on any whole staging memrefs holding the
  point's three input blocks: the first chunk (accumulator zeroed, then two products added), a
  middle chunk (two products added to what the chunk before left), the last chunk (the same, then
  the accumulator copied into the output block). Each run names the pieces the accumulator (and in
  the last case the output block) ends with; the counted loop is crossed by its invariant.
-/
import proofs.«406665_j23776938950951_4_alg».proof.Proof.KI.Common

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- First chunk: the accumulator, at anything, is zeroed and two products are added. The output
    block is handed back untouched. -/
noncomputable def runFirst (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) :
    { LS : List (View.Piece (Elt F) S512x1024 .f32) //
      ∀ (xi6 : Vec F S512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare xi6 ∗ (∃ d, owns (c : Thread nD τ) arg7 fullShare d)
            ∗ (iprop(owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun xi6 E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%d7, %f7, -, H7⟩, Hk⟩
    obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- A middle chunk: two products are added to what the accumulator held. The output block is
    handed back untouched. -/
noncomputable def runMid (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) :
    { LS : List (View.Piece (Elt F) S512x1024 .f32) //
      ∀ (xi6 : Vec F S512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare xi6 ∗ owns (c : Thread nD τ) arg7 fullShare xs
            ∗ (iprop(owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun xi6 E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- The last chunk: two products are added to what the accumulator held, and the accumulator is
    stored whole into the output block (which held anything). -/
noncomputable def runLast (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) :
    Σ' (L6 : List (View.Piece (Elt F) S512x1024 .f32)), { LS : List (View.Piece (Elt F) S512x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%d6, %f6, -, H6⟩, ⟨%f7, %hf7, H7⟩, Hk⟩
    obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Body

end
-- ==== Proof.KI.Data.lean ====
/-
  The proof data of the accumulating matmul's one pipeline, and its frame run.
  After the body at grid point t the accumulator holds what the point's case leaves in it: at a
  first chunk the two products of the point's blocks over zero, at a later chunk the same two
  products over what the point before left. The output block is stored (a copy of the
  accumulator) at a last chunk only; at every other point it is idle and not written back. The
  region's invariant names the accumulator's contents from the second point on, so that the body
  obligation at each point starts from what the point before left.
-/
import proofs.«406665_j23776938950951_4_alg».proof.Proof.KI.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator after a first chunk: the run's pieces read back. -/
def accFirst (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) : Vec F S512x1024 .f32 :=
  accV.read (Elt F) (accV.writes (Elt F) accV.junk (runFirst c i arg3 harg3 arg4 harg4 arg5 harg5 arg6 harg6 arg7 harg7 hc0 hc1 x3 x4 x5).1)
/-- Its pieces cover the accumulator (every store into it is of the whole buffer). -/
theorem coverFirst (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) (y : S512x1024.Idx) :
    ∃ pc ∈ (runFirst c i arg3 harg3 arg4 harg4 arg5 harg5 arg6 harg6 arg7 harg7 hc0 hc1 x3 x4 x5).1, y ∈ pc.1.set :=
  View.cover_of_tiledL (runFirst c i arg3 harg3 arg4 harg4 arg5 harg5 arg6 harg6 arg7 harg7 hc0 hc1 x3 x4 x5).1 S512x1024.size (by sl_kernel_rfl) y

/-- The accumulator after a middle chunk, over what it held (`xs`). -/
def accMid (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) : Vec F S512x1024 .f32 :=
  accV.read (Elt F) (accV.writes (Elt F) accV.junk (runMid c i arg3 harg3 arg4 harg4 arg5 harg5 arg6 harg6 arg7 harg7 hc0 hc1 x3 x4 x5 xs).1)
theorem coverMid (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) (y : S512x1024.Idx) :
    ∃ pc ∈ (runMid c i arg3 harg3 arg4 harg4 arg5 harg5 arg6 harg6 arg7 harg7 hc0 hc1 x3 x4 x5 xs).1, y ∈ pc.1.set :=
  View.cover_of_tiledL (runMid c i arg3 harg3 arg4 harg4 arg5 harg5 arg6 harg6 arg7 harg7 hc0 hc1 x3 x4 x5 xs).1 S512x1024.size (by sl_kernel_rfl) y

/-- The accumulator after a last chunk, over what it held. -/
def accLast (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) : Vec F S512x1024 .f32 :=
  accV.read (Elt F) (accV.writes (Elt F) accV.junk (runLast c i arg3 harg3 arg4 harg4 arg5 harg5 arg6 harg6 arg7 harg7 hc0 hc1 x3 x4 x5 xs).2.1)
theorem coverLastAcc (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) (y : S512x1024.Idx) :
    ∃ pc ∈ (runLast c i arg3 harg3 arg4 harg4 arg5 harg5 arg6 harg6 arg7 harg7 hc0 hc1 x3 x4 x5 xs).2.1, y ∈ pc.1.set :=
  View.cover_of_tiledL (runLast c i arg3 harg3 arg4 harg4 arg5 harg5 arg6 harg6 arg7 harg7 hc0 hc1 x3 x4 x5 xs).2.1 S512x1024.size (by sl_kernel_rfl) y
/-- The output block after a last chunk. -/
def outLast (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) : Vec F S512x1024 .f32 :=
  outV.read (Elt F) (outV.writes (Elt F) outV.junk (runLast c i arg3 harg3 arg4 harg4 arg5 harg5 arg6 harg6 arg7 harg7 hc0 hc1 x3 x4 x5 xs).1)
theorem coverLastOut (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) (y : S512x1024.Idx) :
    ∃ pc ∈ (runLast c i arg3 harg3 arg4 harg4 arg5 harg5 arg6 harg6 arg7 harg7 hc0 hc1 x3 x4 x5 xs).1, y ∈ pc.1.set :=
  View.cover_of_tiledL (runLast c i arg3 harg3 arg4 harg4 arg5 harg5 arg6 harg6 arg7 harg7 hc0 hc1 x3 x4 x5 xs).1 S512x1024.size (by sl_kernel_rfl) y

/-- A placeholder for the output block where it is idle: nothing consults it. -/
def idleOut : Vec F S512x1024 .f32 := outV.read (Elt F) (outV.writes (Elt F) outV.junk [])

/-! ## Point by point -/

/-- The output block and the accumulator after point `t`, from what the accumulator held before. -/
def stepAt (c : Dev nD) (t : Fin cfg0.N) (prev : Vec F S512x1024 .f32) : Vec F S512x1024 .f32 × Vec F S512x1024 .f32 :=
  if h0 : t.val % 16 = 0 then
    (idleOut, accFirst c (grid0.coords t) (ms_0 t) (hs_0 t) (ms_1 t) (hs_1 t) (ms_2 t) (hs_2 t) (ms_3 t) (hs_3 t) accM (Memref.isWhole_whole _) ((isFirst_iff t).mpr h0) (fun h => absurd ((isLast_iff t).mp h) (by omega)) (iblk m c 0 t) (iblk m c 1 t) (iblk m c 2 t))
  else if h1 : t.val % 16 = 15 then
    (outLast c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk m c 0 t) (iblk m c 1 t) (iblk m c 2 t) prev,
     accLast c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk m c 0 t) (iblk m c 1 t) (iblk m c 2 t) prev)
  else
    (idleOut, accMid c (grid0.coords t) (ms_0 t) (hs_0 t) (ms_1 t) (hs_1 t) (ms_2 t) (hs_2 t) (ms_3 t) (hs_3 t) accM (Memref.isWhole_whole _) (fun h => h0 ((isFirst_iff t).mp h)) (fun h => h1 ((isLast_iff t).mp h)) (iblk m c 0 t) (iblk m c 1 t) (iblk m c 2 t) prev)

/-- THE ACCUMULATION: the output block and the accumulator after each point, by recursion on the point. -/
def outsAt (c : Dev nD) : (n : ℕ) → n < cfg0.N → Vec F S512x1024 .f32 × Vec F S512x1024 .f32
  | 0, hn => stepAt m c ⟨0, hn⟩ idleOut
  | n + 1, hn => stepAt m c ⟨n + 1, hn⟩ (outsAt c n (Nat.lt_of_succ_lt hn)).2

/-- What the accumulator holds when point `t` starts (anything, named by a placeholder, at point 0). -/
def accBefore (c : Dev nD) (t : Fin cfg0.N) : Vec F S512x1024 .f32 :=
  if h : t.val = 0 then idleOut else (outsAt m c (t.val - 1) (Nat.lt_of_le_of_lt (Nat.sub_le _ _) t.isLt)).2

theorem outsAt_eq (c : Dev nD) (t : Fin cfg0.N) : outsAt m c t.val t.isLt = stepAt m c t (accBefore m c t) := by
  obtain ⟨n, hn⟩ := t
  cases n with
  | zero => rfl
  | succ n => rfl

/-! ## The region's invariant -/

def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms_0 t) fullShare (iblk m c 0 t) := by
  unfold Dat.leavesExact; rw [live_0 t, after_0]
theorem leaves_1 (c : Dev nD) (t : Fin cfg0.N) :
    (dats m 0 c).leavesExact 1 t = owns (c : Thread nD τ) (ms_1 t) fullShare (iblk m c 1 t) := by
  unfold Dat.leavesExact; rw [live_1 t, after_1]
theorem leaves_2 (c : Dev nD) (t : Fin cfg0.N) :
    (dats m 0 c).leavesExact 2 t = owns (c : Thread nD τ) (ms_2 t) fullShare (iblk m c 2 t) := by
  unfold Dat.leavesExact; rw [live_2 t, after_2]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, outsAt_eq m c t]
  have hN : t.val < 1024 := lt_of_lt_of_eq t.isLt (show cfg0.N = 1024 from N_0)
  by_cases h0 : t.val % 16 = 0
  · have hL : ¬isLast (grid0.coords t) := fun h => absurd ((isLast_iff t).mp h) (by omega)
    rw [Dat.leavesExact_idle (dats m 0 c) 3 t (idle_3 t hL) (noFlush_3 t hL)]
    rw [show stepAt m c t (accBefore m c t) = (idleOut, accFirst c (grid0.coords t) (ms_0 t) (hs_0 t) (ms_1 t) (hs_1 t) (ms_2 t) (hs_2 t) (ms_3 t) (hs_3 t) accM (Memref.isWhole_whole _) ((isFirst_iff t).mpr h0) hL (iblk m c 0 t) (iblk m c 1 t) (iblk m c 2 t)) from dif_pos h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hL (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) hL (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hF : ¬isFirst (grid0.coords t) := fun h => h0 ((isFirst_iff t).mp h)
    have hz : t.val ≠ 0 := fun h => h0 (by rw [h])
    have hprev : accBefore m c t = (outsAt m c (t.val - 1) (Nat.lt_of_le_of_lt (Nat.sub_le _ _) t.isLt)).2 := dif_neg hz
    by_cases h1 : t.val % 16 = 15
    · have hL : isLast (grid0.coords t) := (isLast_iff t).mpr h1
      rw [show (dats m 0 c).leavesExact 3 t = owns (c : Thread nD τ) (ms_3 t) fullShare ((dats m 0 c).after 3 t) from by
        unfold Dat.leavesExact; rw [live_3 t hL], after_3, outsAt_eq m c t]
      rw [show stepAt m c t (accBefore m c t) = (outLast c (grid0.coords t) (ms_0 t) (hs_0 t) (ms_1 t) (hs_1 t) (ms_2 t) (hs_2 t) (ms_3 t) (hs_3 t) accM (Memref.isWhole_whole _) hF hL (iblk m c 0 t) (iblk m c 1 t) (iblk m c 2 t) (accBefore m c t), accLast c (grid0.coords t) (ms_0 t) (hs_0 t) (ms_1 t) (hs_1 t) (ms_2 t) (hs_2 t) (ms_3 t) (hs_3 t) accM (Memref.isWhole_whole _) hF hL (iblk m c 0 t) (iblk m c 1 t) (iblk m c 2 t) (accBefore m c t)) from (dif_neg h0).trans (dif_pos h1)]
      unfold outLast accLast; (try dsimp only)
      rw [PhiS_castSucc m c t, PhiS_pos m c _ _ hz, ← hprev]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ hF hL (iblk m c 0 t) (iblk m c 1 t) (iblk m c 2 t) (accBefore m c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · have hL : ¬isLast (grid0.coords t) := fun h => h1 ((isLast_iff t).mp h)
      rw [Dat.leavesExact_idle (dats m 0 c) 3 t (idle_3 t hL) (noFlush_3 t hL)]
      rw [show stepAt m c t (accBefore m c t) = (idleOut, accMid c (grid0.coords t) (ms_0 t) (hs_0 t) (ms_1 t) (hs_1 t) (ms_2 t) (hs_2 t) (ms_3 t) (hs_3 t) accM (Memref.isWhole_whole _) hF hL (iblk m c 0 t) (iblk m c 1 t) (iblk m c 2 t) (accBefore m c t)) from (dif_neg h0).trans (dif_neg h1)]
      unfold accMid; (try dsimp only)
      rw [PhiS_castSucc m c t, PhiS_pos m c _ _ hz, ← hprev]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ hF hL (iblk m c 0 t) (iblk m c 1 t) (iblk m c 2 t) (accBefore m c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- Every weakly fair execution of the program terminates, each array of the pipeline ending at what
    the proof data computes and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Pieces.lean ====
/-
  What each case of the body leaves, as functions of the point's input blocks.
  One trip k of the loop replaces the accumulator a by a + X_k W_k^T, where X_k is the 128-column
  slice k of the x block and W_k the dequantised tile of slice k of the packed block: the function
  `tripVal`. The loop's two trips leave tripVal 1 (tripVal 0 a). At a first chunk a is the zero
  block; at a later chunk it is what the accumulator held; at a last chunk the output block gets a
  copy of the result.
-/
import proofs.«406665_j23776938950951_4_alg».proof.Proof.KI.Data
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem hz2 : (![0, 0] : Fin 2 → Nat) = fun _ => 0 := funext fun a => by fin_cases a <;> rfl

theorem trips_eq : k0_t1_loop.trips = 2 := by decide
/-- The loop's two trips. -/
abbrev trip0 : Fin k0_t1_loop.trips := ⟨0, by rw [trips_eq]; decide⟩
abbrev trip1 : Fin k0_t1_loop.trips := ⟨1, by rw [trips_eq]; decide⟩

/-- One trip of the loop as a function: from the three input blocks and the accumulator found, the
    accumulator left. -/
def tripVal (x3 : Vec F S512x256 .f32) (x4 : Vec F S2x1024x64 .i32) (x5 : Vec F S2x1024x1 .f32)
    (k : Fin k0_t1_loop.trips) (a : Vec F S512x1024 .f32) : Vec F S512x1024 .f32 :=
  k0_pay2 (View.ld x4 (Rect.unit (s := S2x1024x64) (k0_off1 k) S1x1024x64.size (Facts₀.k0_off1_inb k)))
    (View.ld x5 (Rect.unit (s := S2x1024x1) (k0_off2 k) S1x1024x1.size (Facts₀.k0_off2_inb k)))
    (View.ld x3 (Rect.unit (s := S512x256) (k0_off3 k) S512x128.size (Facts₀.k0_off3_inb k))) a

/-- The two trips. -/
def loopVal (x3 : Vec F S512x256 .f32) (x4 : Vec F S2x1024x64 .i32) (x5 : Vec F S2x1024x1 .f32)
    (a : Vec F S512x1024 .f32) : Vec F S512x1024 .f32 :=
  tripVal x3 x4 x5 trip1 (tripVal x3 x4 x5 trip0 a)

/-- A whole-buffer store, last, leaves its payload. -/
theorem read_whole_cons {sg : RefSig} (v : View sg .tc .vmem S512x1024 .f32) (f : v.ty.Contents (Elt F))
    (inb : ∀ a, (![0, 0] : Fin 2 → Nat) a + S512x1024.size a ≤ S512x1024.size a)
    (w : S512x1024.Idx → Elt F .f32) (L : List (View.Piece (Elt F) S512x1024 .f32)) :
    v.read (Elt F) (v.writes (Elt F) f ((⟨Rect.unit (s := S512x1024) ![0, 0] S512x1024.size inb, w⟩ : View.Piece (Elt F) S512x1024 .f32) :: L)) = w := by
  rw [View.read_writes_eq_canon _ _ _ (fun y => ⟨_, List.mem_cons_self, View.mem_set_unit_zero hz2 inb y⟩),
    View.canon_cons_unit_zero hz2]

/-- One trip's one piece: the whole accumulator stored with the trip's function of what it held. -/
theorem tripL_eq (𝒱 : Variants) (c : Dev nD) (bd : Option 𝒱.V) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (x3 : Vec F S512x256 .f32) (x4 : Vec F S2x1024x64 .i32) (x5 : Vec F S2x1024x1 .f32)
    (k : Fin k0_t1_loop.trips) (f : BufTy.Contents (Elt F) arg7.view.ty) :
    tripL_k0_t1 (F := F) 𝒱 c bd i arg3 harg3 arg4 harg4 arg5 harg5 arg6 harg6 arg7 harg7 (harg3.unread x3) (harg4.unread x4) (harg5.unread x5) k f
      = [⟨Rect.unit (s := S512x1024) ![0, 0] S512x1024.size Facts₀.inb_S512x1024_S512x1024_0_0, tripVal x3 x4 x5 k (arg7.view.read (Elt F) f)⟩] := by
  unfold tripL_k0_t1 trip_k0_t1
  dsimp only
  unfold tripVal
  simp only [View.readAt_eq_ld, harg3.read_unread, harg4.read_unread, harg5.read_unread, View.ld_unit_zero (S := S512x1024) hz2]

/-- The loop's pieces over entry contents G: the second trip's store in front of the first's. -/
theorem pb_two (𝒱 : Variants) (c : Dev nD) (bd : Option 𝒱.V) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (x3 : Vec F S512x256 .f32) (x4 : Vec F S2x1024x64 .i32) (x5 : Vec F S2x1024x1 .f32)
    (G : BufTy.Contents (Elt F) arg7.view.ty) :
    pb_k0_t1 (F := F) 𝒱 c bd i arg3 harg3 arg4 harg4 arg5 harg5 arg6 harg6 arg7 harg7 (harg3.unread x3) (harg4.unread x4) (harg5.unread x5) G 2
      = [⟨Rect.unit (s := S512x1024) ![0, 0] S512x1024.size Facts₀.inb_S512x1024_S512x1024_0_0, loopVal x3 x4 x5 (arg7.view.read (Elt F) G)⟩,
         ⟨Rect.unit (s := S512x1024) ![0, 0] S512x1024.size Facts₀.inb_S512x1024_S512x1024_0_0, tripVal x3 x4 x5 trip0 (arg7.view.read (Elt F) G)⟩] := by
  have e1 := pb_k0_t1_succ (F := F) 𝒱 c bd i arg3 harg3 arg4 harg4 arg5 harg5 arg6 harg6 arg7 harg7 (harg3.unread x3) (harg4.unread x4) (harg5.unread x5) G trip1
  have e0 := pb_k0_t1_succ (F := F) 𝒱 c bd i arg3 harg3 arg4 harg4 arg5 harg5 arg6 harg6 arg7 harg7 (harg3.unread x3) (harg4.unread x4) (harg5.unread x5) G trip0
  have z : pb_k0_t1 (F := F) 𝒱 c bd i arg3 harg3 arg4 harg4 arg5 harg5 arg6 harg6 arg7 harg7 (harg3.unread x3) (harg4.unread x4) (harg5.unread x5) G 0 = [] := rfl
  rw [show (2 : ℕ) = trip1.val + 1 from rfl, e1, show trip1.val = trip0.val + 1 from rfl, e0, show trip0.val = 0 from rfl, z,
    tripL_eq, tripL_eq]
  simp only [List.append_nil, List.singleton_append, View.writes_nil]
  rw [read_whole_cons]
  rfl

/-! ## What each case leaves -/

theorem trips_lit : Scf.trips (0#32) (Scalar.addi 0#32 2#32) 1#32 = 2 := by decide

/-- A middle chunk leaves the two trips over what the accumulator held. -/
theorem accMid_eq (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : ¬isLast i)
    (x3 : Vec F S512x256 .f32) (x4 : Vec F S2x1024x64 .i32) (x5 : Vec F S2x1024x1 .f32) (xs : Vec F S512x1024 .f32) :
    accMid c i arg3 harg3 arg4 harg4 arg5 harg5 arg6 harg6 arg7 harg7 hc0 hc1 x3 x4 x5 xs = loopVal x3 x4 x5 xs := by
  unfold accMid
  rw [View.read_writes_eq_canon _ _ _ (coverMid c i arg3 harg3 arg4 harg4 arg5 harg5 arg6 harg6 arg7 harg7 hc0 hc1 x3 x4 x5 xs)]
  unfold runMid
  dsimp only
  try sl_unfold_words
  rw [trips_lit, pb_two, View.canon_cons_unit_zero hz2, harg7.read_unread]

/-- A first chunk leaves the two trips over the zero block. -/
theorem accFirst_eq (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : isFirst i) (hc1 : ¬isLast i)
    (x3 : Vec F S512x256 .f32) (x4 : Vec F S2x1024x64 .i32) (x5 : Vec F S2x1024x1 .f32) :
    accFirst c i arg3 harg3 arg4 harg4 arg5 harg5 arg6 harg6 arg7 harg7 hc0 hc1 x3 x4 x5 = loopVal x3 x4 x5 (k0_pay1 (F := F)) := by
  unfold accFirst
  rw [View.read_writes_eq_canon _ _ _ (coverFirst c i arg3 harg3 arg4 harg4 arg5 harg5 arg6 harg6 arg7 harg7 hc0 hc1 x3 x4 x5)]
  unfold runFirst
  dsimp only
  try sl_unfold_words
  rw [trips_lit, pb_two, List.cons_append, View.canon_cons_unit_zero hz2, read_whole_cons]

/-- A last chunk leaves the same in the accumulator, -/
theorem accLast_eq (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) :
    accLast c i arg3 harg3 arg4 harg4 arg5 harg5 arg6 harg6 arg7 harg7 hc0 hc1 x3 x4 x5 xs = loopVal x3 x4 x5 xs := by
  unfold accLast
  rw [View.read_writes_eq_canon _ _ _ (coverLastAcc c i arg3 harg3 arg4 harg4 arg5 harg5 arg6 harg6 arg7 harg7 hc0 hc1 x3 x4 x5 xs)]
  unfold runLast
  dsimp only
  try sl_unfold_words
  rw [trips_lit, pb_two, View.canon_cons_unit_zero hz2, harg7.read_unread]

/-- and a copy of it in the output block. -/
theorem outLast_eq (c : Dev nD) (i : grid0.Coords) (arg3 : Memref sig .tc .vmem S512x256 .f32) (harg3 : arg3.IsWhole) (arg4 : Memref sig .tc .vmem S2x1024x64 .i32) (harg4 : arg4.IsWhole) (arg5 : Memref sig .tc .vmem S2x1024x1 .f32) (harg5 : arg5.IsWhole) (arg6 : Memref sig .tc .vmem S512x1024 .f32) (harg6 : arg6.IsWhole) (arg7 : Memref sig .tc .vmem S512x1024 .f32) (harg7 : arg7.IsWhole) (hc0 : ¬isFirst i) (hc1 : isLast i)
    (x3 : Vec F S512x256 .f32) (x4 : Vec F S2x1024x64 .i32) (x5 : Vec F S2x1024x1 .f32) (xs : Vec F S512x1024 .f32) :
    outLast c i arg3 harg3 arg4 harg4 arg5 harg5 arg6 harg6 arg7 harg7 hc0 hc1 x3 x4 x5 xs = loopVal x3 x4 x5 xs := by
  unfold outLast
  rw [View.read_writes_eq_canon _ _ _ (coverLastOut c i arg3 harg3 arg4 harg4 arg5 harg5 arg6 harg6 arg7 harg7 hc0 hc1 x3 x4 x5 xs)]
  unfold runLast
  dsimp only
  try sl_unfold_words
  rw [View.canon_unit_zero hz2]
  rw [View.readAt_eq_ld, View.ld_unit_zero (S := S512x1024) hz2,
    show Scf.trips k0_t1_loop.lb k0_t1_loop.ub k0_t1_loop.st = 2 from trips_eq, pb_two, read_whole_cons, harg7.read_unread]

end Cert.KernelIdeal.Body

end
-- ==== Proof.Spec.lean ====
/-
  The specification: a 4-bit-quantised linear layer.
  Each 32-bit word of the packed weight holds two 4-bit weights in its low byte: the one in bits
  4 and up (read by an arithmetic shift by 4) and the one in the low four bits (a mask by 15). Each
  is centred by subtracting 8 and multiplied by the scale of its block of 128 input features.
  Word c of block j of output row o holds input features 128 j + 2 c (shifted) and 128 j + 2 c + 1
  (masked). The result at (b, s, o) is the sum over the 4096 input features K of
  x[b, s, K] times the dequantised weight of row o at feature K.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The centred 4-bit weight in half `e` of the word `w`: `e = 0` the bits from 4 up, otherwise the
    low four bits; as a real number, 8 subtracted. -/
def nib (w : BitVec 32) (e : ℕ) : EReal :=
  (if e = 0 then FloatOps.sitofp (F := Ideal) .f32 (IntOp.shrsi .vector w 4#32)
    else FloatOps.sitofp (F := Ideal) .f32 (IntOp.andi w 15#32)) - Ideal.ofBits .f32 0x41000000#32

/-- The dequantised weight: the centred 4-bit weight times its block's scale. -/
def deq (w : BitVec 32) (s : EReal) (e : ℕ) : EReal := nib w e * s

/-- The dequantised weight of output row `o` at input feature `K`. -/
def wAt (pw : (⟨3, ![4096, 32, 64]⟩ : Shape).Idx → BitVec 32) (sc : (⟨3, ![4096, 32, 1]⟩ : Shape).Idx → EReal)
    (o : Fin 4096) (K : Fin 4096) : EReal :=
  deq (pw (ix3 o ⟨K.val / 128, by have := K.isLt; omega⟩ ⟨K.val % 128 / 2, by omega⟩))
    (sc (ix3 o ⟨K.val / 128, by have := K.isLt; omega⟩ (0 : Fin 1))) (K.val % 2)

/-- The layer's result: entry (b, s, o) is the sum over the input features. -/
def G (x : (⟨3, ![4, 2048, 4096]⟩ : Shape).Idx → EReal) (pw : (⟨3, ![4096, 32, 64]⟩ : Shape).Idx → BitVec 32)
    (sc : (⟨3, ![4096, 32, 1]⟩ : Shape).Idx → EReal) : (⟨3, ![4, 2048, 4096]⟩ : Shape).Idx → EReal :=
  fun i => ∑ K : Fin 4096, x (ix3 (⟨(i 0).val, (i 0).isLt⟩ : Fin 4) (⟨(i 1).val, (i 1).isLt⟩ : Fin 2048) K)
    * wAt pw sc (⟨(i 2).val, (i 2).isLt⟩ : Fin 4096) K

/-- The host's arithmetic shift and the vector unit's agree below the word's width. -/
theorem shrsi_host_four (w : BitVec 32) : IntOp.shrsi .host w 4#32 = IntOp.shrsi .vector w 4#32 := by
  unfold IntOp.shrsi; rw [if_pos (by decide), if_pos (by decide)]

end Cert.Spec

end
-- ==== Proof.KI.PayIdx.lean ====
import proofs.«406665_j23776938950951_4_alg».proof.Proof.Gen.KernelIdeal.Skeleton
import proofs.«406665_j23776938950951_4_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Val
open Idealize.ShloMosaic Idealize.ShloMosaic.ValueIdx Cert.KernelIdeal

/-- The block the first store writes is the zero block. -/
theorem pay1_apply (j : S512x1024.Idx) : Gen.k0_pay1 (F := Ideal) j = 0 := by
  unfold Gen.k0_pay1
  rw [shapeCast_self]
  exact Ideal.ofBits_zero_f32

/-- Dropping the packed words' leading unit axis. -/
theorem words_apply (v8 : Vec Ideal S1x1024x64 .i32) (q : Fin 1024) (c : Fin 64) :
    shapeCast S1024x64 v8 Gen.shapeCasts_S1x1024x64_S1024x64 (ix2 q c) = v8 (ix3 (0 : Fin 1) q c) :=
  shapeCast_1ab_ab_apply v8 _ q c

/-- Dropping the scales' leading unit axis. -/
theorem scales_apply (v11 : Vec Ideal S1x1024x1 .f32) (q : Fin 1024) (c : Fin 1) :
    shapeCast S1024x1 v11 Gen.shapeCasts_S1x1024x1_S1024x1 (ix2 q c) = v11 (ix3 (0 : Fin 1) q c) :=
  shapeCast_1ab_ab_apply v11 _ q c

/-- A scale column broadcast along the 128 columns. -/
theorem scaleRow_apply (s : FVec Ideal S1024x1 .f32) (q : Fin 1024) (l : Fin 128) :
    broadcastTo S1024x128 s Gen.broadcasts_S1024x1_S1024x128 (ix2 q l) = s (ix2 q (0 : Fin 1)) := by
  refine broadcastTo_apply s _ (ix2 q l) (ix2 q (0 : Fin 1)) fun ax => ?_
  match ax with
  | ⟨0, _⟩ => rfl
  | ⟨1, _⟩ => rfl

/-- A new unit last axis. -/
theorem addLast_apply (A : FVec Ideal S1024x64 .f32) (q : Fin 1024) (c : Fin 64) (u : Fin 1) :
    shapeCast S1024x64x1 A Gen.shapeCasts_S1024x64_S1024x64x1 (ix3 q c u) = A (ix2 q c) :=
  shapeCast_apply A _ _ _ (by
    have hu : u.val = 0 := by omega
    rw [Shape.rowMajor_val_two, Shape.rowMajor_val_three]
    show q.val * 64 + c.val = (q.val * 64 + c.val) * 1 + u.val
    omega)

/-- Two arrays laid side by side on a new last axis of extent 2 and flattened: column `l` of row `q` reads the
    first array at word `l / 2` when `l` is even and the second when `l` is odd. -/
theorem interleave_apply (A B : FVec Ideal S1024x64 .f32) (q : Fin 1024) (l : Fin 128) :
    shapeCast S1024x128
        (concatenate S1024x64x2 2
          [⟨S1024x64x1, shapeCast S1024x64x1 A Gen.shapeCasts_S1024x64_S1024x64x1⟩,
           ⟨S1024x64x1, shapeCast S1024x64x1 B Gen.shapeCasts_S1024x64_S1024x64x1⟩]
          Gen.concatenates_S1024x64x1_S1024x64x1_S1024x64x2_d2)
        Gen.shapeCasts_S1024x64x2_S1024x128 (ix2 q l)
      = if l.val % 2 = 0 then A (ix2 q (⟨l.val / 2, by have := l.isLt; omega⟩ : Fin 64))
          else B (ix2 q (⟨l.val / 2, by have := l.isLt; omega⟩ : Fin 64)) := by
  have hl := l.isLt
  refine (shapeCast_apply _ _ (ix2 q l)
    (ix3 q (⟨l.val / 2, by omega⟩ : Fin 64) (⟨l.val % 2, by omega⟩ : Fin 2)) (by
      rw [Shape.rowMajor_val_three, Shape.rowMajor_val_two]
      show (q.val * 64 + l.val / 2) * 2 + l.val % 2 = q.val * 128 + l.val
      omega)).trans ?_
  by_cases h0 : l.val % 2 = 0
  · rw [if_pos h0]
    refine (concatenate_pair_apply_left (t := S1024x64x2) (s₁ := S1024x64x1) (s₂ := S1024x64x1) 2 _ _ _ _ rfl
      (ix3 q (⟨l.val / 2, by omega⟩ : Fin 64) (0 : Fin 1)) (fun b => ?_)).trans (addLast_apply A q _ _)
    match b with
    | ⟨0, _⟩ => rfl
    | ⟨1, _⟩ => rfl
    | ⟨2, _⟩ => exact h0.symm
  · rw [if_neg h0]
    refine (concatenate_pair_apply_right (t := S1024x64x2) (s₁ := S1024x64x1) (s₂ := S1024x64x1) 2 _ _ _ _ rfl rfl
      (ix3 q (⟨l.val / 2, by omega⟩ : Fin 64) (0 : Fin 1)) (fun b hb => ?_) ?_).trans (addLast_apply B q _ _)
    · match b with
      | ⟨0, _⟩ => rfl
      | ⟨1, _⟩ => rfl
      | ⟨2, _⟩ => exact absurd rfl hb
    · show 0 + 1 = l.val % 2
      omega

/-- The dequantised weight tile the loop's trip builds from the packed words and the scales: the two 4-bit halves of
    every word, each centred by 8, interleaved along the columns, times the row's scale. -/
def tile (v8 : Vec Ideal S1x1024x64 .i32) (v11 : Vec Ideal S1x1024x1 .f32) : FVec Ideal S1024x128 .f32 :=
  mulf
    (shapeCast S1024x128
      (concatenate S1024x64x2 2
        [⟨S1024x64x1, shapeCast S1024x64x1
            (subf (sitofp .f32 (shrsi (shapeCast S1024x64 v8 Gen.shapeCasts_S1x1024x64_S1024x64) (broadcast S1024x64 4#32)))
              (broadcast S1024x64 (Scalar.ofBits (F := Ideal) .f32 0x41000000#32)))
            Gen.shapeCasts_S1024x64_S1024x64x1⟩,
         ⟨S1024x64x1, shapeCast S1024x64x1
            (subf (sitofp .f32 (andi (shapeCast S1024x64 v8 Gen.shapeCasts_S1x1024x64_S1024x64) (broadcast S1024x64 15#32)))
              (broadcast S1024x64 (Scalar.ofBits (F := Ideal) .f32 0x41000000#32)))
            Gen.shapeCasts_S1024x64_S1024x64x1⟩]
        Gen.concatenates_S1024x64x1_S1024x64x1_S1024x64x2_d2)
      Gen.shapeCasts_S1024x64x2_S1024x128)
    (broadcastTo S1024x128 (shapeCast S1024x1 v11 Gen.shapeCasts_S1x1024x1_S1024x1) Gen.broadcasts_S1024x1_S1024x128)

/-- The tile at row `q`, column `l`: the dequantised weight of half `l % 2` of word `l / 2` of that row. -/
theorem tile_apply (v8 : Vec Ideal S1x1024x64 .i32) (v11 : Vec Ideal S1x1024x1 .f32) (q : Fin 1024) (l : Fin 128) :
    tile v8 v11 (ix2 q l)
      = Cert.Spec.deq (v8 (ix3 (0 : Fin 1) q (⟨l.val / 2, by have := l.isLt; omega⟩ : Fin 64)))
          (v11 (ix3 (0 : Fin 1) q (0 : Fin 1))) (l.val % 2) := by
  unfold tile
  rw [mulf_apply, interleave_apply, scaleRow_apply, scales_apply]
  unfold Cert.Spec.deq Cert.Spec.nib
  by_cases h0 : l.val % 2 = 0
  · rw [if_pos h0, if_pos h0, subf_apply, sitofp_apply]
    show (FloatOps.sitofp (F := Ideal) .f32 (IntOp.shrsi .vector (shapeCast S1024x64 v8 Gen.shapeCasts_S1x1024x64_S1024x64 (ix2 q _)) 4#32) - _) * _ = _
    rw [words_apply]
    rfl
  · rw [if_neg h0, if_neg h0, subf_apply, sitofp_apply]
    show (FloatOps.sitofp (F := Ideal) .f32 (IntOp.andi (shapeCast S1024x64 v8 Gen.shapeCasts_S1x1024x64_S1024x64 (ix2 q _)) 15#32) - _) * _ = _
    rw [words_apply]
    rfl

/-! ## The product: output (p, q) takes row p of the left operand and row q of the right -/

theorem dot_lhs0 (j : S512x1024.Idx) (k : dot_S512x128_S1024x128_S512x1024_1_1_0_0_n_n.contr.Idx) :
    (dot_S512x128_S1024x128_S512x1024_1_1_0_0_n_n.lhsIdx j k 0).val = (j 0).val := by
  unfold DotDims.lhsIdx
  rw [dif_neg (show ¬(0 : Fin S512x128.rank) ∈ dot_S512x128_S1024x128_S512x1024_1_1_0_0_n_n.lhsBatch by decide),
    dif_pos (show (0 : Fin S512x128.rank) ∈ dot_S512x128_S1024x128_S512x1024_1_1_0_0_n_n.lhsNonContracting by decide)]
  rfl
theorem dot_lhs1 (j : S512x1024.Idx) (k : dot_S512x128_S1024x128_S512x1024_1_1_0_0_n_n.contr.Idx) :
    (dot_S512x128_S1024x128_S512x1024_1_1_0_0_n_n.lhsIdx j k 1).val = (k ⟨0, by decide⟩).val :=
  dot_S512x128_S1024x128_S512x1024_1_1_0_0_n_n.lhsIdx_val_of_single rfl j k
theorem dot_rhs0 (j : S512x1024.Idx) (k : dot_S512x128_S1024x128_S512x1024_1_1_0_0_n_n.contr.Idx) :
    (dot_S512x128_S1024x128_S512x1024_1_1_0_0_n_n.rhsIdx j k 0).val = (j 1).val := by
  unfold DotDims.rhsIdx
  rw [dif_neg (show ¬(0 : Fin S1024x128.rank) ∈ dot_S512x128_S1024x128_S512x1024_1_1_0_0_n_n.rhsBatch by decide),
    dif_pos (show (0 : Fin S1024x128.rank) ∈ dot_S512x128_S1024x128_S512x1024_1_1_0_0_n_n.rhsNonContracting by decide)]
  rfl
theorem dot_rhs1 (j : S512x1024.Idx) (k : dot_S512x128_S1024x128_S512x1024_1_1_0_0_n_n.contr.Idx) :
    (dot_S512x128_S1024x128_S512x1024_1_1_0_0_n_n.rhsIdx j k 1).val = (k ⟨0, by decide⟩).val :=
  dot_S512x128_S1024x128_S512x1024_1_1_0_0_n_n.rhsIdx_val_of_single rfl j k

/-- The product into a zero accumulator at (p, q): the sum over the 128 contracted columns. -/
theorem product_apply (X : FVec Ideal S512x128 .bf16) (W : FVec Ideal S1024x128 .bf16) (p : Fin 512) (q : Fin 1024) :
    matmul dot_S512x128_S1024x128_S512x1024_1_1_0_0_n_n none X W (constant S512x1024 .f32 0x00000000#32) (ix2 p q)
      = ∑ l : Fin 128, X (ix2 p l) * W (ix2 q l) := by
  simp only [matmul]
  rw [Ideal.matmul_constant_zero_apply,
    ← Equiv.sum_comp (contrEquiv1 dot_S512x128_S1024x128_S512x1024_1_1_0_0_n_n 128 rfl rfl).symm]
  refine Finset.sum_congr rfl fun l _ => ?_
  have hk := contrEquiv1_symm_val dot_S512x128_S1024x128_S512x1024_1_1_0_0_n_n 128 rfl rfl l
  have el : dot_S512x128_S1024x128_S512x1024_1_1_0_0_n_n.lhsIdx (ix2 p q)
      ((contrEquiv1 dot_S512x128_S1024x128_S512x1024_1_1_0_0_n_n 128 rfl rfl).symm l) = ix2 p l :=
    funext fun a => Fin.ext (by
      match a with
      | ⟨0, _⟩ => exact dot_lhs0 _ _
      | ⟨1, _⟩ => exact (dot_lhs1 _ _).trans hk)
  have er : dot_S512x128_S1024x128_S512x1024_1_1_0_0_n_n.rhsIdx (ix2 p q)
      ((contrEquiv1 dot_S512x128_S1024x128_S512x1024_1_1_0_0_n_n 128 rfl rfl).symm l) = ix2 q l :=
    funext fun a => Fin.ext (by
      match a with
      | ⟨0, _⟩ => exact dot_rhs0 _ _
      | ⟨1, _⟩ => exact (dot_rhs1 _ _).trans hk)
  rw [el, er]

/-- One trip's payload is the accumulator block plus the product of the slice of x with the weight tile. -/
theorem pay2_eq (v8 : Vec Ideal S1x1024x64 .i32) (v11 : Vec Ideal S1x1024x1 .f32) (v33 : Vec Ideal S512x128 .f32)
    (v36 : Vec Ideal S512x1024 .f32) :
    Gen.k0_pay2 (F := Ideal) v8 v11 v33 v36
      = shapeCast S512x1024
          (addf v36 (matmul dot_S512x128_S1024x128_S512x1024_1_1_0_0_n_n none
            (truncf .bf16 (shapeCast S512x128 v33 Gen.shapeCasts_S512x128_S512x128) Gen.bitsLt_bf16_f32)
            (truncf .bf16 (tile v8 v11) Gen.bitsLt_bf16_f32)
            (constant S512x1024 .f32 0x00000000#32)))
          Gen.shapeCasts_S512x1024_S512x1024 := rfl

/-- One trip's payload at (p, q): the accumulator there plus the sum, over the slice's 128 columns, of x times the
    dequantised weight of output row q. -/
theorem pay2_apply (v8 : Vec Ideal S1x1024x64 .i32) (v11 : Vec Ideal S1x1024x1 .f32) (v33 : Vec Ideal S512x128 .f32)
    (v36 : Vec Ideal S512x1024 .f32) (p : Fin 512) (q : Fin 1024) :
    Gen.k0_pay2 (F := Ideal) v8 v11 v33 v36 (ix2 p q)
      = v36 (ix2 p q) + ∑ l : Fin 128, v33 (ix2 p l)
          * Cert.Spec.deq (v8 (ix3 (0 : Fin 1) q (⟨l.val / 2, by have := l.isLt; omega⟩ : Fin 64)))
              (v11 (ix3 (0 : Fin 1) q (0 : Fin 1))) (l.val % 2) := by
  rw [pay2_eq, shapeCast_self, addf_apply, product_apply]
  refine congrArg (v36 (ix2 p q) + ·) (Finset.sum_congr rfl fun l _ => ?_)
  rw [truncf_apply, truncf_apply, shapeCast_self, tile_apply]

end Cert.KernelIdeal.Val

end
-- ==== Proof.KI.TripAt.lean ====
import proofs.«406665_j23776938950951_4_alg».proof.Proof.KI.Pieces
import proofs.«406665_j23776938950951_4_alg».proof.Proof.KI.PayIdx
noncomputable section
open Idealize.ShloMosaic Idealize.ShloMosaic.TcCoe Idealize.SL.Sem Idealize.ShloMosaic.ValueIdx
namespace Cert.KernelIdeal.Val
open Cert.KernelIdeal Cert.KernelIdeal.Gen Cert.KernelIdeal.Body

/-! ## The three blocks a trip loads, read at an index

Trip `k` reads the 128-column slice `k` of the x block, and sub-block `k` of the packed words and of the scales:
unit-stride rectangles whose offsets are `(0, 128 k)`, `(k, 0, 0)` and `(k, 0, 0)`. -/

/-- The slice of x at (p, l) is x at (p, 128 k + l). -/
theorem ldX_apply (x3 : Vec Ideal S512x256 .f32) (kv : Fin 2) (k : Fin k0_t1_loop.trips) (hk : k.val = kv.val)
    (p : Fin 512) (l : Fin 128) :
    View.ld x3 (Rect.unit (s := S512x256) (k0_off3 k) S512x128.size (Facts₀.k0_off3_inb k)) (ix2 p l)
      = x3 (ix2 p (⟨128 * kv.val + l.val, by have := kv.isLt; have := l.isLt; omega⟩ : Fin 256)) := by
  show x3 _ = x3 _
  refine congrArg x3 (funext fun a => Fin.ext ?_)
  match a with
  | ⟨0, h⟩ =>
    have e : k0_off3 k ⟨0, h⟩ = 0 := congrFun (k0_off3_eq k) _
    rw [LoadRect.idx_apply, Rect.off_unit, Rect.stride_unit, e]
    show 0 + 1 * p.val = p.val
    omega
  | ⟨1, h⟩ =>
    have e : k0_off3 k ⟨1, h⟩ = 128 * k.val := congrFun (k0_off3_eq k) _
    rw [LoadRect.idx_apply, Rect.off_unit, Rect.stride_unit, e]
    show 128 * k.val + 1 * l.val = 128 * kv.val + l.val
    omega

/-- The sub-block of packed words at (0, q, c) is the packed block at (k, q, c). -/
theorem ldW_apply (x4 : Vec Ideal S2x1024x64 .i32) (kv : Fin 2) (k : Fin k0_t1_loop.trips) (hk : k.val = kv.val)
    (q : Fin 1024) (c : Fin 64) :
    View.ld x4 (Rect.unit (s := S2x1024x64) (k0_off1 k) S1x1024x64.size (Facts₀.k0_off1_inb k)) (ix3 (0 : Fin 1) q c)
      = x4 (ix3 kv q c) := by
  show x4 _ = x4 _
  refine congrArg x4 (funext fun a => Fin.ext ?_)
  match a with
  | ⟨0, h⟩ =>
    have e : k0_off1 k ⟨0, h⟩ = k.val := congrFun (k0_off1_eq k) _
    rw [LoadRect.idx_apply, Rect.off_unit, Rect.stride_unit, e]
    show k.val + 1 * 0 = kv.val
    omega
  | ⟨1, h⟩ =>
    have e : k0_off1 k ⟨1, h⟩ = 0 := congrFun (k0_off1_eq k) _
    rw [LoadRect.idx_apply, Rect.off_unit, Rect.stride_unit, e]
    show 0 + 1 * q.val = q.val
    omega
  | ⟨2, h⟩ =>
    have e : k0_off1 k ⟨2, h⟩ = 0 := congrFun (k0_off1_eq k) _
    rw [LoadRect.idx_apply, Rect.off_unit, Rect.stride_unit, e]
    show 0 + 1 * c.val = c.val
    omega

/-- The sub-block of scales at (0, q, 0) is the scale block at (k, q, 0). -/
theorem ldS_apply (x5 : Vec Ideal S2x1024x1 .f32) (kv : Fin 2) (k : Fin k0_t1_loop.trips) (hk : k.val = kv.val)
    (q : Fin 1024) (c : Fin 1) :
    View.ld x5 (Rect.unit (s := S2x1024x1) (k0_off2 k) S1x1024x1.size (Facts₀.k0_off2_inb k)) (ix3 (0 : Fin 1) q c)
      = x5 (ix3 kv q c) := by
  show x5 _ = x5 _
  refine congrArg x5 (funext fun a => Fin.ext ?_)
  match a with
  | ⟨0, h⟩ =>
    have e : k0_off2 k ⟨0, h⟩ = k.val := congrFun (k0_off2_eq k) _
    rw [LoadRect.idx_apply, Rect.off_unit, Rect.stride_unit, e]
    show k.val + 1 * 0 = kv.val
    omega
  | ⟨1, h⟩ =>
    have e : k0_off2 k ⟨1, h⟩ = 0 := congrFun (k0_off2_eq k) _
    rw [LoadRect.idx_apply, Rect.off_unit, Rect.stride_unit, e]
    show 0 + 1 * q.val = q.val
    omega
  | ⟨2, h⟩ =>
    have e : k0_off2 k ⟨2, h⟩ = 0 := congrFun (k0_off2_eq k) _
    rw [LoadRect.idx_apply, Rect.off_unit, Rect.stride_unit, e]
    show 0 + 1 * c.val = c.val
    omega
/-- Trip `kv` (0 or 1) adds, at (p, q), the sum over the 128 features of slice `kv` of x's block row `p` times the
    dequantised weight of row `q` of sub-block `kv`. -/
theorem tripVal_apply (x3 : Vec Ideal S512x256 .f32) (x4 : Vec Ideal S2x1024x64 .i32) (x5 : Vec Ideal S2x1024x1 .f32)
    (kv : Fin 2) (k : Fin k0_t1_loop.trips) (hk : k.val = kv.val) (a : Vec Ideal S512x1024 .f32) (p : Fin 512) (q : Fin 1024) :
    tripVal (F := Ideal) x3 x4 x5 k a (ix2 p q)
      = a (ix2 p q) + ∑ l : Fin 128, x3 (ix2 p (⟨128 * kv.val + l.val, by have := kv.isLt; have := l.isLt; omega⟩ : Fin 256))
          * Cert.Spec.deq (x4 (ix3 kv q (⟨l.val / 2, by have := l.isLt; omega⟩ : Fin 64))) (x5 (ix3 kv q (0 : Fin 1))) (l.val % 2) := by
  unfold tripVal
  rw [pay2_apply]
  refine congrArg (a (ix2 p q) + ·) (Finset.sum_congr rfl fun l _ => ?_)
  rw [ldX_apply x3 kv k hk, ldW_apply x4 kv k hk, ldS_apply x5 kv k hk]

/-- The loop's two trips over the accumulator `a`. -/
theorem loopVal_apply (x3 : Vec Ideal S512x256 .f32) (x4 : Vec Ideal S2x1024x64 .i32) (x5 : Vec Ideal S2x1024x1 .f32)
    (a : Vec Ideal S512x1024 .f32) (p : Fin 512) (q : Fin 1024) :
    loopVal (F := Ideal) x3 x4 x5 a (ix2 p q)
      = (a (ix2 p q) + ∑ l : Fin 128, x3 (ix2 p (⟨l.val, by have := l.isLt; omega⟩ : Fin 256))
            * Cert.Spec.deq (x4 (ix3 (0 : Fin 2) q (⟨l.val / 2, by have := l.isLt; omega⟩ : Fin 64))) (x5 (ix3 (0 : Fin 2) q (0 : Fin 1))) (l.val % 2))
        + ∑ l : Fin 128, x3 (ix2 p (⟨128 + l.val, by have := l.isLt; omega⟩ : Fin 256))
            * Cert.Spec.deq (x4 (ix3 (1 : Fin 2) q (⟨l.val / 2, by have := l.isLt; omega⟩ : Fin 64))) (x5 (ix3 (1 : Fin 2) q (0 : Fin 1))) (l.val % 2) := by
  unfold loopVal
  rw [tripVal_apply x3 x4 x5 (1 : Fin 2) trip1 rfl, tripVal_apply x3 x4 x5 (0 : Fin 2) trip0 rfl]
  refine congrArg₂ (· + ·) (congrArg (a (ix2 p q) + ·) (Finset.sum_congr rfl fun l _ => ?_)) (Finset.sum_congr rfl fun l _ => ?_)
  · exact congrArg (fun t : Fin 256 => x3 (ix2 p t) * _) (Fin.ext (by show 128 * 0 + l.val = l.val; omega))
  · exact congrArg (fun t : Fin 256 => x3 (ix2 p t) * _) (Fin.ext (by show 128 * 1 + l.val = 128 + l.val; omega))

end Cert.KernelIdeal.Val

end
-- ==== Proof.KI.Blocks.lean ====
/-
  The kernel's three input blocks at a grid point, read at an index as entries of the argument arrays.
  The grid is 16 x 4 x 16 and point t has coordinates (t / 64, t / 16 % 4, t % 16). The activations reach
  the kernel reshaped to 8192 x 4096 and cut into 512 x 256 blocks indexed by (coordinate 0, coordinate 2);
  the packed weights and the scales reach it with their first two axes exchanged, cut into blocks of
  2 x 1024 along (coordinate 2, coordinate 1).
-/
import proofs.«406665_j23776938950951_4_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-! ## The index maps in closed form -/

/-- The grid has 1024 points. -/
theorem point_lt (t : Fin cfg0.N) : t.val < 1024 := by
  have h : t.val < grid0.N := t.isLt
  rwa [N_0] at h

/-- Block indices of the three input windows at point t, as arithmetic in t. -/
theorem idx_facts : ∀ t : Fin cfg0.N,
    win0_0.index t 0 = t.val / 64 ∧ win0_0.index t 1 = t.val % 16
    ∧ win0_1.index t 0 = t.val % 16 ∧ win0_1.index t 1 = t.val / 16 % 4 ∧ win0_1.index t 2 = 0
    ∧ win0_2.index t 0 = t.val % 16 ∧ win0_2.index t 1 = t.val / 16 % 4 ∧ win0_2.index t 2 = 0 :=
  (by decide +kernel : ∀ t : Fin grid0.N, _)

/-! ## The arrays the kernel's windows read, as functions of the arguments -/

/-- The activations as the kernel finds them: the argument with its first two axes merged. -/
theorem x_array (c : Dev nD) : (V m c main_v0 : S8192x4096.Idx → Elt F .f32)
    = shapeCast S8192x4096 (m ((c : Thread nD τ).loc main_arg0) : S4x2048x4096.Idx → Elt F .f32) shapeCasts_S4x2048x4096_S8192x4096 := by
  show StableHlo.after hostOps0 (fun b => m (c, b)) (Proc.devRef .tc main_v0) = _
  after_results
  rfl

/-- The packed weights as the kernel finds them: the argument with its first two axes exchanged. -/
theorem w_array (c : Dev nD) : (V m c main_v1 : S32x4096x64.Idx → Elt F .i32)
    = transpose S32x4096x64 [1, 0, 2] (m ((c : Thread nD τ).loc main_arg1) : S4096x32x64.Idx → Elt F .i32) transposes_S4096x32x64_S32x4096x64_1_0_2 := by
  show StableHlo.after hostOps0 (fun b => m (c, b)) (Proc.devRef .tc main_v1) = _
  after_results

/-- The scales as the kernel finds them: the argument with its first two axes exchanged. -/
theorem s_array (c : Dev nD) : (V m c main_v2 : S32x4096x1.Idx → Elt F .f32)
    = transpose S32x4096x1 [1, 0, 2] (m ((c : Thread nD τ).loc main_arg2) : S4096x32x1.Idx → Elt F .f32) transposes_S4096x32x1_S32x4096x1_1_0_2 := by
  show StableHlo.after hostOps0 (fun b => m (c, b)) (Proc.devRef .tc main_v2) = _
  after_results

/-! ## The blocks at a point -/

/-- Entry (p, a) of the activations' block at point t is row 512 (t / 64) + p of the merged rows, that is
    batch row ((512 (t / 64) + p) / 2048, (512 (t / 64) + p) % 2048), at input feature 256 (t % 16) + a. -/
theorem xblk_apply (c : Dev nD) (t : Fin cfg0.N) (p : Fin 512) (a : Fin 256) :
    (iblk m c 0 t : Vec F S512x256 .f32) (ix2 p a)
      = (m ((c : Thread nD τ).loc main_arg0) : S4x2048x4096.Idx → Elt F .f32)
          (ix3 (⟨(512 * (t.val / 64) + p.val) / 2048, by have := point_lt t; have := p.isLt; omega⟩ : Fin 4)
            (⟨(512 * (t.val / 64) + p.val) % 2048, by omega⟩ : Fin 2048)
            (⟨256 * (t.val % 16) + a.val, by have := a.isLt; omega⟩ : Fin 4096)) := by
  have hi := idx_facts t
  unfold iblk
  rw [View.read_apply]
  show V m c main_v0 _ = _
  rw [x_array]
  refine shapeCast_apply (s := S4x2048x4096) (t := S8192x4096) _ _ _ _ ?_
  rw [Shape.rowMajor_val_three, Shape.rowMajor_val_two]
  show ((512 * (t.val / 64) + p.val) / 2048 * 2048 + (512 * (t.val / 64) + p.val) % 2048) * 4096 + (256 * (t.val % 16) + a.val)
    = (win0_0.index t 0 * 512 + 1 * p.val) * 4096 + (win0_0.index t 1 * 256 + 1 * a.val)
  rw [hi.1, hi.2.1]
  omega

/-- Entry (kk, q, cc) of the packed weights' block at point t is word cc of block 2 (t % 16) + kk of
    output row 1024 (t / 16 % 4) + q. -/
theorem wblk_apply (c : Dev nD) (t : Fin cfg0.N) (kk : Fin 2) (q : Fin 1024) (cc : Fin 64) :
    (iblk m c 1 t : Vec F S2x1024x64 .i32) (ix3 kk q cc)
      = (m ((c : Thread nD τ).loc main_arg1) : S4096x32x64.Idx → Elt F .i32)
          (ix3 (⟨1024 * (t.val / 16 % 4) + q.val, by have := q.isLt; omega⟩ : Fin 4096)
            (⟨2 * (t.val % 16) + kk.val, by have := kk.isLt; omega⟩ : Fin 32) cc) := by
  have hi := idx_facts t
  unfold iblk
  rw [View.read_apply]
  show V m c main_v1 _ = _
  rw [w_array]
  refine transpose_apply _ _ _ _ _ (fun b => ?_)
  match b with
  | ⟨0, _⟩ =>
    show 2 * (t.val % 16) + kk.val = win0_1.index t 0 * 2 + 1 * kk.val
    rw [hi.2.2.1]; omega
  | ⟨1, _⟩ =>
    show 1024 * (t.val / 16 % 4) + q.val = win0_1.index t 1 * 1024 + 1 * q.val
    rw [hi.2.2.2.1]; omega
  | ⟨2, _⟩ =>
    show cc.val = win0_1.index t 2 * 64 + 1 * cc.val
    rw [hi.2.2.2.2.1]; omega

/-- Entry (kk, q, 0) of the scales' block at point t is the scale of block 2 (t % 16) + kk of
    output row 1024 (t / 16 % 4) + q. -/
theorem sblk_apply (c : Dev nD) (t : Fin cfg0.N) (kk : Fin 2) (q : Fin 1024) :
    (iblk m c 2 t : Vec F S2x1024x1 .f32) (ix3 kk q (0 : Fin 1))
      = (m ((c : Thread nD τ).loc main_arg2) : S4096x32x1.Idx → Elt F .f32)
          (ix3 (⟨1024 * (t.val / 16 % 4) + q.val, by have := q.isLt; omega⟩ : Fin 4096)
            (⟨2 * (t.val % 16) + kk.val, by have := kk.isLt; omega⟩ : Fin 32) (0 : Fin 1)) := by
  have hi := idx_facts t
  unfold iblk
  rw [View.read_apply]
  show V m c main_v2 _ = _
  rw [s_array]
  refine transpose_apply _ _ _ _ _ (fun b => ?_)
  match b with
  | ⟨0, _⟩ =>
    show 2 * (t.val % 16) + kk.val = win0_2.index t 0 * 2 + 1 * kk.val
    rw [hi.2.2.2.2.2.1]; omega
  | ⟨1, _⟩ =>
    show 1024 * (t.val / 16 % 4) + q.val = win0_2.index t 1 * 1024 + 1 * q.val
    rw [hi.2.2.2.2.2.2.1]; omega
  | ⟨2, _⟩ =>
    show 0 = win0_2.index t 2 * 1 + 1 * 0
    rw [hi.2.2.2.2.2.2.2]

end Cert.KernelIdeal.Val

end
-- ==== Proof.KI.Accum.lean ====
/-
  The accumulator, point by point, as a partial sum.
  Write x2[M, K] for x seen as 8192 rows of 4096 features and w[N, K] for the dequantised weight
  of output column N at feature K. Grid point t has row block t / 64, column block t / 16 % 4 and
  chunk t % 16. After the body at point t the accumulator's entry (p, q) is the sum, over the
  features K below 256 (t % 16 + 1), of x2[512 (t / 64) + p, K] w[1024 (t / 16 % 4) + q, K]:
  a first chunk starts from zero, a later chunk from what the chunk before left, and each of the
  loop's two trips adds the next 128 features. Only the grouping of a finite sum is used.
-/
import proofs.«406665_j23776938950951_4_alg».proof.Proof.KI.TripAt
import proofs.«406665_j23776938950951_4_alg».proof.Proof.KI.Blocks
import proofs.«406665_j23776938950951_4_alg».proof.Proof.Spec

noncomputable section

open Idealize.ShloMosaic Idealize.ShloMosaic.TcCoe Idealize.SL.Sem Idealize.ShloMosaic.ValueIdx

namespace Cert.KernelIdeal.Val

open Cert.KernelIdeal Cert.KernelIdeal.Gen Cert.KernelIdeal.Body

variable (m : (ℓ : Loc nD τ sig) → Buf (Elt Ideal) ℓ)

/-- The three argument arrays as launched. -/
abbrev xA (c : Dev nD) : S4x2048x4096.Idx → EReal := m ((c : Thread nD τ).loc main_arg0)
abbrev pwA (c : Dev nD) : S4096x32x64.Idx → BitVec 32 := m ((c : Thread nD τ).loc main_arg1)
abbrev scA (c : Dev nD) : S4096x32x1.Idx → EReal := m ((c : Thread nD τ).loc main_arg2)

/-- The point's three input blocks, at their literal types. -/
abbrev xblk (c : Dev nD) (t : Fin cfg0.N) : Vec Ideal S512x256 .f32 := iblk m c 0 t
abbrev wblk (c : Dev nD) (t : Fin cfg0.N) : Vec Ideal S2x1024x64 .i32 := iblk m c 1 t
abbrev sblk (c : Dev nD) (t : Fin cfg0.N) : Vec Ideal S2x1024x1 .f32 := iblk m c 2 t

/-- The product term of row `M` of x (as 8192 rows), output column `N` and feature `K`; zero outside the ranges. -/
def term (c : Dev nD) (M N K : ℕ) : EReal :=
  if h : M < 8192 ∧ N < 4096 ∧ K < 4096 then
    xA m c (ix3 (⟨M / 2048, by have := h.1; omega⟩ : Fin 4) (⟨M % 2048, Nat.mod_lt _ (by decide)⟩ : Fin 2048) (⟨K, h.2.2⟩ : Fin 4096))
      * Cert.Spec.wAt (pwA m c) (scA m c) ⟨N, h.2.1⟩ ⟨K, h.2.2⟩
  else 0

/-- The sum of the terms over the first `n` features. -/
def psum (c : Dev nD) (M N n : ℕ) : EReal := ∑ K ∈ Finset.range n, term m c M N K

theorem psum_zero (c : Dev nD) (M N : ℕ) : psum m c M N 0 = 0 := by
  unfold psum; rw [Finset.range_zero, Finset.sum_empty]

/-- Two more runs of 128 features. -/
theorem psum_step (c : Dev nD) (M N a : ℕ) :
    (psum m c M N a + ∑ l ∈ Finset.range 128, term m c M N (a + 128 * 0 + l))
      + ∑ l ∈ Finset.range 128, term m c M N (a + 128 * 1 + l) = psum m c M N (a + 256) := by
  unfold psum
  rw [show a + 256 = a + 128 + 128 from rfl, Finset.sum_range_add, Finset.sum_range_add]
  simp only [Nat.mul_zero, Nat.add_zero, Nat.mul_one]

theorem ix3_congr {n0 n1 n2 : Nat} {a a' : Fin n0} {b b' : Fin n1} {d d' : Fin n2}
    (ha : a.val = a'.val) (hb : b.val = b'.val) (hd : d.val = d'.val) : ix3 a b d = ix3 a' b' d' := by
  rw [Fin.ext ha, Fin.ext hb, Fin.ext hd]

/-- One trip's sum over its 128 features, read off the point's blocks, is a run of 128 terms. -/
theorem slice_sum (c : Dev nD) (t : Fin cfg0.N) (kv : Fin 2) (p : Fin 512) (q : Fin 1024)
    (f : Fin 128 → Fin 256) (g : Fin 128 → Fin 64) (tv kn : ℕ) (htv : t.val = tv) (hkn : kv.val = kn)
    (hf : ∀ l, (f l).val = 128 * kn + l.val) (hg : ∀ l, (g l).val = l.val / 2) :
    ∑ l : Fin 128, xblk m c t (ix2 p (f l))
        * Cert.Spec.deq (wblk m c t (ix3 kv q (g l))) (sblk m c t (ix3 kv q (0 : Fin 1))) (l.val % 2)
      = ∑ l ∈ Finset.range 128, term m c (512 * (tv / 64) + p.val) (1024 * (tv / 16 % 4) + q.val) (256 * (tv % 16) + 128 * kn + l) := by
  subst htv hkn
  have hN : t.val < 1024 := lt_of_lt_of_eq t.isLt (show cfg0.N = 1024 from N_0)
  have hp := p.isLt
  have hq := q.isLt
  have hkv := kv.isLt
  rw [Finset.sum_range]
  refine Finset.sum_congr rfl fun l _ => ?_
  have hl := l.isLt
  have hfl := hf l
  have hgl := hg l
  have hr : 512 * (t.val / 64) + p.val < 8192 ∧ 1024 * (t.val / 16 % 4) + q.val < 4096 ∧ 256 * (t.val % 16) + 128 * kv.val + l.val < 4096 := by
    refine ⟨by omega, by omega, by omega⟩
  have hx : xblk m c t (ix2 p (f l)) = _ := xblk_apply m c t p (f l)
  have hw : wblk m c t (ix3 kv q (g l)) = _ := wblk_apply m c t kv q (g l)
  have hs : sblk m c t (ix3 kv q (0 : Fin 1)) = _ := sblk_apply m c t kv q
  rw [hx, hw, hs]
  unfold term
  rw [dif_pos hr]
  unfold Cert.Spec.wAt
  refine congrArg₂ (· * ·) (congrArg (xA m c) (ix3_congr rfl rfl
    (by show 256 * (t.val % 16) + (f l).val = 256 * (t.val % 16) + 128 * kv.val + l.val; omega))) ?_
  have e1 : (ix3 (⟨1024 * (t.val / 16 % 4) + q.val, by omega⟩ : Fin 4096) (⟨2 * (t.val % 16) + kv.val, by omega⟩ : Fin 32) (g l))
      = ix3 (⟨1024 * (t.val / 16 % 4) + q.val, hr.2.1⟩ : Fin 4096) (⟨(256 * (t.val % 16) + 128 * kv.val + l.val) / 128, by omega⟩ : Fin 32) (⟨(256 * (t.val % 16) + 128 * kv.val + l.val) % 128 / 2, by omega⟩ : Fin 64) :=
    ix3_congr rfl (by show 2 * (t.val % 16) + kv.val = (256 * (t.val % 16) + 128 * kv.val + l.val) / 128; omega)
      (by show (g l).val = (256 * (t.val % 16) + 128 * kv.val + l.val) % 128 / 2; omega)
  have e2 : (ix3 (⟨1024 * (t.val / 16 % 4) + q.val, by omega⟩ : Fin 4096) (⟨2 * (t.val % 16) + kv.val, by omega⟩ : Fin 32) (0 : Fin 1))
      = ix3 (⟨1024 * (t.val / 16 % 4) + q.val, hr.2.1⟩ : Fin 4096) (⟨(256 * (t.val % 16) + 128 * kv.val + l.val) / 128, by omega⟩ : Fin 32) (0 : Fin 1) :=
    ix3_congr rfl (by show 2 * (t.val % 16) + kv.val = (256 * (t.val % 16) + 128 * kv.val + l.val) / 128; omega) rfl
  have e3 : l.val % 2 = (256 * (t.val % 16) + 128 * kv.val + l.val) % 2 := by omega
  show Cert.Spec.deq (pwA m c _) (scA m c _) _ = Cert.Spec.deq (pwA m c _) (scA m c _) _
  rw [e3]
  exact congrArg₂ (fun a b => Cert.Spec.deq a b _) (congrArg (pwA m c) e1) (congrArg (scA m c) e2)

/-- The loop at point `t` (number `tv`) takes the partial sum over the chunks before the point's to the one
    including it. -/
theorem loop_step (c : Dev nD) (t : Fin cfg0.N) (tv : ℕ) (htv : t.val = tv) (a : Vec Ideal S512x1024 .f32)
    (p : Fin 512) (q : Fin 1024)
    (ha : a (ix2 p q) = psum m c (512 * (tv / 64) + p.val) (1024 * (tv / 16 % 4) + q.val) (256 * (tv % 16))) :
    loopVal (F := Ideal) (iblk m c 0 t) (iblk m c 1 t) (iblk m c 2 t) a (ix2 p q)
      = psum m c (512 * (tv / 64) + p.val) (1024 * (tv / 16 % 4) + q.val) (256 * (tv % 16 + 1)) := by
  rw [loopVal_apply, ha]
  refine (congrArg₂ (· + ·) (congrArg₂ (· + ·) rfl
      (slice_sum m c t 0 p q (fun l : Fin 128 => (⟨l.val, by have := l.isLt; omega⟩ : Fin 256)) (fun l : Fin 128 => (⟨l.val / 2, by have := l.isLt; omega⟩ : Fin 64)) tv 0 htv rfl (fun l => by show l.val = 128 * 0 + l.val; omega) (fun l => rfl)))
      (slice_sum m c t 1 p q (fun l : Fin 128 => (⟨128 + l.val, by have := l.isLt; omega⟩ : Fin 256)) (fun l : Fin 128 => (⟨l.val / 2, by have := l.isLt; omega⟩ : Fin 64)) tv 1 htv rfl (fun l => by show 128 + l.val = 128 * 1 + l.val; omega) (fun l => rfl))).trans ?_
  exact (psum_step m c (512 * (tv / 64) + p.val) (1024 * (tv / 16 % 4) + q.val) (256 * (tv % 16))).trans (by rw [Nat.mul_succ])

/-- THE ACCUMULATION, READ: after point `n` the accumulator's entry (p, q) is the partial sum over the
    features of the chunks up to the point's. -/
theorem acc_inv (c : Dev nD) : ∀ (n : ℕ) (hn : n < cfg0.N) (p : Fin 512) (q : Fin 1024),
    (outsAt m c n hn).2 (ix2 p q)
      = psum m c (512 * (n / 64) + p.val) (1024 * (n / 16 % 4) + q.val) (256 * (n % 16 + 1)) := by
  intro n
  induction n with
  | zero =>
    intro hn p q
    show (stepAt m c ⟨0, hn⟩ idleOut).2 (ix2 p q) = _
    unfold stepAt
    rw [dif_pos (show (⟨0, hn⟩ : Fin cfg0.N).val % 16 = 0 from rfl)]
    dsimp only
    rw [accFirst_eq]
    refine loop_step m c ⟨0, hn⟩ 0 rfl _ p q ?_
    rw [pay1_apply]
    exact (psum_zero m c _ _).symm
  | succ n ih =>
    intro hn p q
    have hN : n + 1 < 1024 := lt_of_lt_of_eq hn (show cfg0.N = 1024 from N_0)
    show (stepAt m c ⟨n + 1, hn⟩ (outsAt m c n (Nat.lt_of_succ_lt hn)).2).2 (ix2 p q) = _
    unfold stepAt
    by_cases h0 : (n + 1) % 16 = 0
    · rw [dif_pos (show (⟨n + 1, hn⟩ : Fin cfg0.N).val % 16 = 0 from h0)]
      dsimp only
      rw [accFirst_eq]
      refine loop_step m c ⟨n + 1, hn⟩ (n + 1) rfl _ p q ?_
      rw [pay1_apply, h0, Nat.mul_zero, psum_zero]
    · have hprev : (outsAt m c n (Nat.lt_of_succ_lt hn)).2 (ix2 p q)
          = psum m c (512 * ((n + 1) / 64) + p.val) (1024 * ((n + 1) / 16 % 4) + q.val) (256 * ((n + 1) % 16)) := by
        rw [ih (Nat.lt_of_succ_lt hn) p q]
        have e1 : n / 64 = (n + 1) / 64 := by omega
        have e2 : n / 16 % 4 = (n + 1) / 16 % 4 := by omega
        have e3 : n % 16 + 1 = (n + 1) % 16 := by omega
        rw [e1, e2, e3]
      rw [dif_neg (show ¬(⟨n + 1, hn⟩ : Fin cfg0.N).val % 16 = 0 from h0)]
      by_cases h1 : (n + 1) % 16 = 15
      · rw [dif_pos (show (⟨n + 1, hn⟩ : Fin cfg0.N).val % 16 = 15 from h1)]
        dsimp only
        rw [accLast_eq]
        exact loop_step m c ⟨n + 1, hn⟩ (n + 1) rfl _ p q hprev
      · rw [dif_neg (show ¬(⟨n + 1, hn⟩ : Fin cfg0.N).val % 16 = 15 from h1)]
        dsimp only
        rw [accMid_eq]
        exact loop_step m c ⟨n + 1, hn⟩ (n + 1) rfl _ p q hprev

end Cert.KernelIdeal.Val

end
-- ==== Proof.KI.Final.lean ====
/-
  From the accumulator to the result array.
  At a last chunk (t % 16 = 15) the output block is a copy of the accumulator, whose entry (p, q)
  is by then the sum over all 4096 features. The pipeline writes that block back at exactly those
  points, and the 64 blocks (16 row blocks of 512 by 4 column blocks of 1024) tile the 8192 x 4096
  result; the closing reshape reads row 2048 b + s as (b, s). So the program's result at (b, s, o)
  is the specification's sum.
-/
import proofs.«406665_j23776938950951_4_alg».proof.Proof.KI.Accum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Body

variable (m : (ℓ : Loc nD τ sig) → Buf (Elt Ideal) ℓ) (ρ : Dev nD → PrngReg)

/-- At a last chunk the output block is the accumulator. -/
theorem out_eq_acc (c : Dev nD) (t : Fin cfg0.N) (h : t.val % 16 = 15) :
    (outsAt m c t.val t.isLt).1 = (outsAt m c t.val t.isLt).2 := by
  rw [outsAt_eq]
  unfold stepAt
  rw [dif_neg (show ¬t.val % 16 = 0 by omega), dif_pos h]
  dsimp only
  rw [outLast_eq, accLast_eq]

/-- The 8192 x 4096 product: entry (M, N) the sum over all features. -/
def prod2 (c : Dev nD) : S8192x4096.Idx → EReal := fun i => psum m c (i 0).val (i 1).val 4096

/-- The output window's index map in closed form, decided over the grid. -/
theorem out_idx : ∀ t : Fin cfg0.N, win0_3.index t (0 : Fin 2) = t.val / 64 ∧ win0_3.index t (1 : Fin 2) = t.val / 16 % 4 :=
  (by decide +kernel : ∀ t : Fin grid0.N, win0_3.index t (0 : Fin 2) = t.val / 64 ∧ win0_3.index t (1 : Fin 2) = t.val / 16 % 4)

/-- What a write-back writes is its block of the product. -/
theorem flushed_eq (c : Dev nD) (t : Fin cfg0.N) (hf : (cfg0.win 3).flush t = true) :
    (dats m 0 c).flushed 3 t = ((cfg0.win 3).blk t).view.read (Elt Ideal) (prod2 m c) := by
  have h15 : t.val % 16 = 15 := (flush0_3 t).mp hf
  obtain ⟨e0, e1⟩ := out_idx t
  show (cfg0.win 3).cut (grid0.coords t) ((dats m 0 c).after 3 t) = _
  rw [after_3, out_eq_acc m c t h15]
  funext j
  obtain ⟨p, q, rfl⟩ : ∃ (p : Fin 512) (q : Fin 1024), j = ix2 p q := ⟨j 0, j 1, eq_ix2 j⟩
  show (outsAt m c t.val t.isLt).2 (ix2 p q) = prod2 m c (((cfg0.win 3).blk t).view.emb (ix2 p q))
  rw [acc_inv m c t.val t.isLt p q]
  unfold prod2
  have c0 : ((((cfg0.win 3).blk t).view.emb (ix2 p q)) 0).val = win0_3.index t (0 : Fin 2) * 512 + 1 * p.val := rfl
  have c1 : ((((cfg0.win 3).blk t).view.emb (ix2 p q)) 1).val = win0_3.index t (1 : Fin 2) * 1024 + 1 * q.val := rfl
  rw [c0, c1, e0, e1, h15]
  congr 1 <;> omega

/-- The product array after the run. -/
theorem final3 (c : Dev nD) : (dats m 0 c).arrAt 3 cfg0.N = prod2 m c :=
  (dats m 0 c).arrAt_eq_of_cover 3 (prod2 m c) (flushed_eq m c) fun i => by
    have h0 : (i 0 : Nat) < 8192 := (i 0).isLt
    have h1 : (i 1 : Nat) < 4096 := (i 1).isLt
    have hN : cfg0.N = 1024 := N_0
    let t : Fin cfg0.N := ⟨((i 0 : Nat) / 512 * 4 + (i 1 : Nat) / 1024) * 16 + 15, by rw [hN]; omega⟩
    have ht : t.val = ((i 0 : Nat) / 512 * 4 + (i 1 : Nat) / 1024) * 16 + 15 := rfl
    obtain ⟨e0, e1⟩ := out_idx t
    refine ⟨t, (flush0_3 t).mpr (by rw [ht]; omega), ?_⟩
    show i ∈ ((View.whole main_v3).slice (win0_3.rect t)).set
    rw [View.set_slice_whole, Rect.mem_set_unit]
    intro a
    match a with
    | ⟨0, _⟩ =>
      show win0_3.index t (0 : Fin 2) * 512 ≤ (i 0 : Nat) ∧ (i 0 : Nat) < win0_3.index t (0 : Fin 2) * 512 + 512
      rw [e0, ht]; omega
    | ⟨1, _⟩ =>
      show win0_3.index t (1 : Fin 2) * 1024 ≤ (i 1 : Nat) ∧ (i 1 : Nat) < win0_3.index t (1 : Fin 2) * 1024 + 1024
      rw [e1, ht]; omega

/-- A full sum of terms is the specification's sum. -/
theorem psum_full (c : Dev nD) (b : Fin 4) (s : Fin 2048) (o : Fin 4096) :
    psum m c (2048 * b.val + s.val) o.val 4096 = Cert.Spec.G (xA m c) (pwA m c) (scA m c) (ix3 b s o) := by
  have hb := b.isLt
  have hs := s.isLt
  have ho := o.isLt
  unfold psum Cert.Spec.G
  rw [Finset.sum_range]
  refine Finset.sum_congr rfl fun K _ => ?_
  have hK := K.isLt
  unfold term
  rw [dif_pos ⟨by omega, ho, hK⟩]
  refine congrArg₂ (· * ·) (congrArg (xA m c) (ix3_congr (by show (2048 * b.val + s.val) / 2048 = b.val; omega) (by show (2048 * b.val + s.val) % 2048 = s.val; omega) rfl)) rfl

/-- THE RESULT after the closing reshape is the specification. -/
theorem result_eq (c : Dev nD) :
    Pipeline.afterTail₀ cfgs (dats m) 0 (V0 m) [hostOps1] c main_v4 = Cert.Spec.G (xA m c) (pwA m c) (scA m c) := by
  unfold Pipeline.afterTail₀
  show StableHlo.after hostOps1 _ (Proc.devRef .tc main_v4) = _
  after_results
  rw [(Pipeline.withArrays_arr spec0 launch0.win.arr_inj c _ _ 3).trans (final3 m c)]
  funext i
  obtain ⟨b, s, o, rfl⟩ : ∃ (b : Fin 4) (s : Fin 2048) (o : Fin 4096), i = ix3 b s o := ⟨i 0, i 1, i 2, eq_ix3 i⟩
  have hb := b.isLt
  have hs := s.isLt
  have ho := o.isLt
  show shapeCast S4x2048x4096 (prod2 m c) Facts₀.shapeCasts_S8192x4096_S4x2048x4096 (ix3 b s o) = _
  refine (shapeCast_apply (prod2 m c) Facts₀.shapeCasts_S8192x4096_S4x2048x4096 (ix3 b s o) (ix2 (⟨2048 * b.val + s.val, by omega⟩ : Fin 8192) o)
    (by rewrite [Shape.rowMajor_val_two, Shape.rowMajor_val_three]; show (2048 * b.val + s.val) * 4096 + o.val = (b.val * 2048 + s.val) * 4096 + o.val; omega)).trans ?_
  exact psum_full m c b s o

/-- The run, read: the result array at the specification of the argument arrays, the arguments unchanged. -/
theorem run : θ_run defs (onTc (τ := τ) (main (F := Ideal))) ⟨m, fun _ => 0, ρ⟩ (fun r => ∀ c : Dev nD,
      r.2.mem ((c.tc : Thread nD τ).loc main_v4) = Cert.Spec.G (xA m c) (pwA m c) (scA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.RefRead.lean ====
/-
  The reference's result read at an index: over the generated run of the host program and its
  read-at-an-index lemmas, the last stage (the contraction of x against the dequantised weights)
  as a plain sum over the 4096 input features.
-/
import proofs.«406665_j23776938950951_4_alg».proof.Proof.Gen.ReferenceIdeal.Read

import proofs.«406665_j23776938950951_4_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-! ## The two halves of a word, centred -/

/-- The shifted half of word (o, j, c), 8 subtracted: the specification's centred weight of half 0. -/
theorem v4_at (x1 : (⟨S4096x32x64, .i32⟩ : BufTy).Contents (Elt Ideal)) (o : Fin 4096) (j : Fin 32) (c : Fin 64) :
    val_main_v4 (F := Ideal) x1 (ix3 o j c) = Cert.Spec.nib (x1 (ix3 o j c)) 0 := by
  rw [val_main_v4_apply, val_main_v2_apply, val_main_v1_apply, val_main_v0_apply, val_main_c_apply,
    val_main_v3_apply, val_main_cst_apply, Cert.Spec.shrsi_host_four]
  unfold Cert.Spec.nib
  rw [if_pos rfl]
  rfl

/-- The masked half of word (o, j, c), 8 subtracted: the specification's centred weight of half 1. -/
theorem v9_at (x1 : (⟨S4096x32x64, .i32⟩ : BufTy).Contents (Elt Ideal)) (o : Fin 4096) (j : Fin 32) (c : Fin 64) :
    val_main_v9 (F := Ideal) x1 (ix3 o j c) = Cert.Spec.nib (x1 (ix3 o j c)) 1 := by
  rw [val_main_v9_apply, val_main_v7_apply, val_main_v6_apply, val_main_v5_apply, val_main_c_0_apply,
    val_main_v8_apply, val_main_cst_1_apply]
  unfold Cert.Spec.nib
  rw [if_neg (by decide)]
  rfl

/-! ## The unit axis added, and the two halves joined on it -/

/-- The shifted halves with a unit last axis, at (o, j, c, 0). -/
theorem v10_at (x1 : (⟨S4096x32x64, .i32⟩ : BufTy).Contents (Elt Ideal)) (o : Fin 4096) (j : Fin 32) (c : Fin 64) :
    val_main_v10 (F := Ideal) x1 (ix4 o j c (0 : Fin 1)) = Cert.Spec.nib (x1 (ix3 o j c)) 0 := by
  rw [val_main_v10_apply]
  have e : idx_main_v10 (ix4 o j c (0 : Fin 1)) = ix3 o j c := by
    funext a
    match a with
    | ⟨0, _⟩ => rfl
    | ⟨1, _⟩ => rfl
    | ⟨2, _⟩ => rfl
  rw [e, v4_at]

/-- The masked halves with a unit last axis, at (o, j, c, 0). -/
theorem v11_at (x1 : (⟨S4096x32x64, .i32⟩ : BufTy).Contents (Elt Ideal)) (o : Fin 4096) (j : Fin 32) (c : Fin 64) :
    val_main_v11 (F := Ideal) x1 (ix4 o j c (0 : Fin 1)) = Cert.Spec.nib (x1 (ix3 o j c)) 1 := by
  rw [val_main_v11_apply]
  have e : idx_main_v11 (ix4 o j c (0 : Fin 1)) = ix3 o j c := by
    funext a
    match a with
    | ⟨0, _⟩ => rfl
    | ⟨1, _⟩ => rfl
    | ⟨2, _⟩ => rfl
  rw [e, v9_at]

/-- The join of the two on the new last axis: at (o, j, c, e) the centred weight of half e of word (o, j, c). -/
theorem v12_at (x1 : (⟨S4096x32x64, .i32⟩ : BufTy).Contents (Elt Ideal)) (o : Fin 4096) (j : Fin 32) (c : Fin 64) (e : Fin 2) :
    val_main_v12 (F := Ideal) x1 (ix4 o j c e) = Cert.Spec.nib (x1 (ix3 o j c)) e.val := by
  unfold val_main_v12
  match e with
  | ⟨0, _⟩ =>
    rw [concatenate_pair_apply_left (s₁ := S4096x32x64x1) (s₂ := S4096x32x64x1) (3 : Fin S4096x32x64x2.rank) _ _ _ (ix4 o j c (⟨0, by decide⟩ : Fin 2)) rfl (ix4 o j c (0 : Fin 1))
      (fun b => by
        match b with
        | ⟨0, _⟩ => rfl
        | ⟨1, _⟩ => rfl
        | ⟨2, _⟩ => rfl
        | ⟨3, _⟩ => rfl)]
    exact v10_at x1 o j c
  | ⟨1, _⟩ =>
    rw [concatenate_pair_apply_right (s₁ := S4096x32x64x1) (s₂ := S4096x32x64x1) (3 : Fin S4096x32x64x2.rank) _ _ _ (ix4 o j c (⟨1, by decide⟩ : Fin 2)) rfl rfl (ix4 o j c (0 : Fin 1))
      (fun b hb => by
        match b with
        | ⟨0, _⟩ => rfl
        | ⟨1, _⟩ => rfl
        | ⟨2, _⟩ => rfl
        | ⟨3, _⟩ => exact absurd rfl hb)
      rfl]
    exact v11_at x1 o j c

/-! ## The last two axes merged: 64 words of two halves are 128 features -/

/-- Feature m of block j of row o is half m % 2 of word m / 2. -/
theorem v13_at (x1 : (⟨S4096x32x64, .i32⟩ : BufTy).Contents (Elt Ideal)) (o : Fin 4096) (j : Fin 32) (m : Fin 128) :
    val_main_v13 (F := Ideal) x1 (ix3 o j m)
      = Cert.Spec.nib (x1 (ix3 o j (⟨m.val / 2, by have := m.isLt; omega⟩ : Fin 64))) (m.val % 2) := by
  rw [val_main_v13_apply]
  have e : idx_main_v13 (ix3 o j m)
      = ix4 o j (⟨m.val / 2, by have := m.isLt; omega⟩ : Fin 64) (⟨m.val % 2, by omega⟩ : Fin 2) := by
    have ho := o.isLt
    have hj := j.isLt
    have hm := m.isLt
    funext a
    match a with
    | ⟨0, _⟩ => exact Fin.ext (by show ((o.val * 32 + j.val) * 128 + m.val) / 4096 = o.val; omega)
    | ⟨1, _⟩ => exact Fin.ext (by show ((o.val * 32 + j.val) * 128 + m.val) / 128 % 32 = j.val; omega)
    | ⟨2, _⟩ => exact Fin.ext (by show ((o.val * 32 + j.val) * 128 + m.val) / 2 % 64 = m.val / 2; omega)
    | ⟨3, _⟩ => exact Fin.ext (by show ((o.val * 32 + j.val) * 128 + m.val) % 2 = m.val % 2; omega)
  rw [e, v12_at]

/-- The scales spread along the 128 features of their block. -/
theorem v14_at (x2 : (⟨S4096x32x1, .f32⟩ : BufTy).Contents (Elt Ideal)) (o : Fin 4096) (j : Fin 32) (m : Fin 128) :
    val_main_v14 (F := Ideal) x2 (ix3 o j m) = x2 (ix3 o j (0 : Fin 1)) := by
  rw [val_main_v14_apply]
  congr 1
  funext a
  match a with
  | ⟨0, _⟩ => rfl
  | ⟨1, _⟩ => rfl
  | ⟨2, _⟩ => rfl

/-- The dequantised weight of feature m of block j of row o. -/
theorem v15_at (x1 : (⟨S4096x32x64, .i32⟩ : BufTy).Contents (Elt Ideal)) (x2 : (⟨S4096x32x1, .f32⟩ : BufTy).Contents (Elt Ideal))
    (o : Fin 4096) (j : Fin 32) (m : Fin 128) :
    val_main_v15 (F := Ideal) x1 x2 (ix3 o j m)
      = Cert.Spec.deq (x1 (ix3 o j (⟨m.val / 2, by have := m.isLt; omega⟩ : Fin 64))) (x2 (ix3 o j (0 : Fin 1))) (m.val % 2) := by
  rw [val_main_v15_apply, v13_at, v14_at]
  rfl

/-! ## Blocks and features merged: the weight matrix -/

/-- Entry (o, K) of the 4096 x 4096 weight matrix is the specification's dequantised weight. -/
theorem v16_at (x1 : (⟨S4096x32x64, .i32⟩ : BufTy).Contents (Elt Ideal)) (x2 : (⟨S4096x32x1, .f32⟩ : BufTy).Contents (Elt Ideal))
    (o : Fin 4096) (K : Fin 4096) :
    val_main_v16 (F := Ideal) x1 x2 (ix2 o K) = Cert.Spec.wAt x1 x2 o K := by
  rw [val_main_v16_apply]
  have e : idx_main_v16 (ix2 o K)
      = ix3 o (⟨K.val / 128, by have := K.isLt; omega⟩ : Fin 32) (⟨K.val % 128, by omega⟩ : Fin 128) := by
    have ho := o.isLt
    have hK := K.isLt
    funext a
    match a with
    | ⟨0, _⟩ => exact Fin.ext (by show (o.val * 4096 + K.val) / 4096 = o.val; omega)
    | ⟨1, _⟩ => exact Fin.ext (by show (o.val * 4096 + K.val) / 128 % 32 = K.val / 128; omega)
    | ⟨2, _⟩ => exact Fin.ext (by show (o.val * 4096 + K.val) % 128 = K.val % 128; omega)
  rw [e, v15_at]
  unfold Cert.Spec.wAt
  have h2 : K.val % 128 % 2 = K.val % 2 := by omega
  show Cert.Spec.deq _ _ (K.val % 128 % 2) = _
  rw [h2]

/-! ## The contraction -/

/-- The reference's result is the specification. -/
theorem ref_is_G (x0 : (⟨S4x2048x4096, .f32⟩ : BufTy).Contents (Elt Ideal)) (x1 : (⟨S4096x32x64, .i32⟩ : BufTy).Contents (Elt Ideal))
    (x2 : (⟨S4096x32x1, .f32⟩ : BufTy).Contents (Elt Ideal)) :
    Read.val_main_v17 (F := Ideal) x0 x1 x2 = Cert.Spec.G x0 x1 x2 := by
  funext i
  rw [val_main_v17_apply]
  unfold Cert.Spec.G
  refine Finset.sum_congr rfl fun K _ => ?_
  have el : lidx_main_v17 i K
      = ix3 (⟨(i 0).val, (i 0).isLt⟩ : Fin 4) (⟨(i 1).val, (i 1).isLt⟩ : Fin 2048) K := by
    funext a
    match a with
    | ⟨0, _⟩ => rfl
    | ⟨1, _⟩ => rfl
    | ⟨2, _⟩ => rfl
  have er : ridx_main_v17 i K = ix2 (⟨(i 2).val, (i 2).isLt⟩ : Fin 4096) K := by
    funext a
    match a with
    | ⟨0, _⟩ => rfl
    | ⟨1, _⟩ => rfl
  rw [el, er, v16_at]

end Cert.ReferenceIdeal.RefValue

end
-- ==== Proof.lean ====
/-
  A 4-bit-quantised linear layer: the kernel against its reference, over the extended reals.

  Both programs compute y[b, s, o] = sum over the 4096 input features K of x[b, s, K] w[o, K],
  where w[o, K] is the dequantised weight: word (K % 128) / 2 of block K / 128 of row o of the
  packed array holds two 4-bit weights (bits 4 and up, read by an arithmetic shift; the low four
  bits, read by a mask), feature K takes the half K % 2, centred by 8 and multiplied by the
  block's scale. The reference dequantises the whole matrix and contracts once. The kernel walks
  a 16 x 4 x 16 grid: for each 512 x 1024 output block it zeroes an accumulator at the first of 16
  chunks of 256 features, adds at every chunk two products of a 512 x 128 slice of x with the
  transposed 1024 x 128 dequantised tile, and copies the accumulator out at the last chunk.
  At the ideal instance a change of float format is the identity and a product into a zero
  accumulator is a plain sum, so the two results differ only in how one finite sum is grouped:
  the accumulator after chunk k holds the partial sum over the first 256 (k + 1) features, and
  associativity of addition of extended reals closes the gap. No finiteness is needed: no law
  beyond the grouping of a sum in a commutative monoid is used, so the precondition is never opened.

  The three frames: the two kernel programs run through the pipeline's launch with the body proved
  case by case (first chunk, middle chunk, last chunk), the counted loop crossed by its invariant;
  the reference is a straight line of host operations. The idealisation rewrote nothing, so the
  preservation claim is empty.
-/
import proofs.«406665_j23776938950951_4_alg».proof.Defs
import proofs.«406665_j23776938950951_4_alg».proof.Proof.Gen.Kernel
import proofs.«406665_j23776938950951_4_alg».proof.Proof.Gen.KernelIdeal
import proofs.«406665_j23776938950951_4_alg».proof.Proof.Gen.ReferenceIdeal
import proofs.«406665_j23776938950951_4_alg».proof.Proof.Gen.Pre_finite_inputs
import proofs.«406665_j23776938950951_4_alg».proof.Proof.Gen.ReferenceIdeal.Run
import proofs.«406665_j23776938950951_4_alg».proof.Proof.K.Data
import proofs.«406665_j23776938950951_4_alg».proof.Proof.KI.Final
import proofs.«406665_j23776938950951_4_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame (F := Bits) m ρ

/-- So does the kernel read over the extended reals. -/
theorem frame_ki : Cert.frame_KernelIdeal := fun m ρ _ => Cert.KernelIdeal.Body.frame (F := Ideal) m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end at the specification's sum of arguments that agree. -/
theorem algebraic : Cert.algebraic_KernelIdeal_ReferenceIdeal := by
  intro m ρ m' ρ' _ hagree
  refine ⟨fun c => Cert.Spec.G (Cert.KernelIdeal.Val.xA m c) (Cert.KernelIdeal.Val.pwA m c) (Cert.KernelIdeal.Val.scA m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v17_eq _ _ _).trans (Cert.ReferenceIdeal.RefValue.ref_is_G _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
